-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x64x96x112x96 : Shape := ⟨5, ![2, 64, 96, 112, 96]⟩
abbrev S91x109x91 : Shape := ⟨3, ![91, 109, 91]⟩
abbrev S_ : Shape := ⟨0, ![]⟩

class Facts : Prop where
  bcast_S_S2x64x96x112x96 : S_.BroadcastsInDim S2x64x96x112x96 (![] : Fin 0 → Fin S2x64x96x112x96.rank)
  reducesTo_S2x64x96x112x96_S_d0_1_2_3_4 : S2x64x96x112x96.ReducesTo [0, 1, 2, 3, 4] S_
  h_S_ : 0 < S_.numel

variable [Facts]

def fn {F : FTy → Type} [FloatOps F] (main_arg0 : FVec F S2x64x96x112x96 .f32) (main_arg1 : IVec S91x109x91 32) : IVec S_ 1 :=
  let main_v0 : FVec F S2x64x96x112x96 .f32 := Host.absf main_arg0
  let main_cst : FVec F S_ .f32 := constant S_ .f32 0x7F800000#32
  let main_v1 : FVec F S2x64x96x112x96 .f32 := broadcastInDim S2x64x96x112x96 ![] bcast_S_S2x64x96x112x96 main_cst
  let main_v2 : IVec S2x64x96x112x96 1 := cmpf .olt main_v0 main_v1
  let main_c : IVec S_ 1 := constantI S_ 1 1#1
  let main_v3 : IVec S_ 1 := (fun x v => Host.reduce IntOp.andi x v reducesTo_S2x64x96x112x96_S_d0_1_2_3_4 h_S_) main_v2 main_c
  main_v3
-- ==== Kernel.lean ====
abbrev S2x64x96x112x96 : Shape := ⟨5, ![2, 64, 96, 112, 96]⟩
abbrev S91x109x91 : Shape := ⟨3, ![91, 109, 91]⟩
abbrev S_ : Shape := ⟨0, ![]⟩
abbrev S96x112x96 : Shape := ⟨3, ![96, 112, 96]⟩
abbrev S2x64x128 : Shape := ⟨3, ![2, 64, 128]⟩
abbrev S1x64x1x112x96 : Shape := ⟨5, ![1, 64, 1, 112, 96]⟩
abbrev S1x112x96 : Shape := ⟨3, ![1, 112, 96]⟩
abbrev S1x64x128 : Shape := ⟨3, ![1, 64, 128]⟩
abbrev S64x128 : Shape := ⟨2, ![64, 128]⟩
abbrev S64x112x96 : Shape := ⟨3, ![64, 112, 96]⟩
abbrev S112x96 : Shape := ⟨2, ![112, 96]⟩
abbrev S64x10752 : Shape := ⟨2, ![64, 10752]⟩
abbrev S1x10752 : Shape := ⟨2, ![1, 10752]⟩
abbrev S128x10752 : Shape := ⟨2, ![128, 10752]⟩
abbrev S902629 : Shape := ⟨1, ![902629]⟩
abbrev S95 : Shape := ⟨1, ![95]⟩
abbrev S902629x1 : Shape := ⟨2, ![902629, 1]⟩
abbrev S2x64x94 : Shape := ⟨3, ![2, 64, 94]⟩
abbrev S94 : Shape := ⟨1, ![94]⟩
abbrev S2x94x64 : Shape := ⟨3, ![2, 94, 64]⟩
abbrev S1x94x1 : Shape := ⟨3, ![1, 94, 1]⟩

abbrev nBuf : Space → Nat
  | .hbm => 22
  | .vmem => 7
  | .smem => 0
  | _ => 0

abbrev bufTy : (tb : Table) → Fin (tcTables nBuf tb) → BufTy
  | .hbm, ⟨0, _⟩ => ⟨S2x64x96x112x96, .f32⟩
  | .hbm, ⟨1, _⟩ => ⟨S91x109x91, .i32⟩
  | .hbm, ⟨2, _⟩ => ⟨S_, .i32⟩
  | .hbm, ⟨3, _⟩ => ⟨S_, .i32⟩
  | .hbm, ⟨4, _⟩ => ⟨S96x112x96, .i32⟩
  | .hbm, ⟨5, _⟩ => ⟨S2x64x128, .f32⟩
  | .hbm, ⟨6, _⟩ => ⟨S902629, .i32⟩
  | .hbm, ⟨7, _⟩ => ⟨S_, .f32⟩
  | .hbm, ⟨8, _⟩ => ⟨S902629, .f32⟩
  | .hbm, ⟨9, _⟩ => ⟨S_, .f32⟩
  | .hbm, ⟨10, _⟩ => ⟨S95, .f32⟩
  | .hbm, ⟨11, _⟩ => ⟨S902629x1, .i32⟩
  | .hbm, ⟨12, _⟩ => ⟨S95, .f32⟩
  | .hbm, ⟨13, _⟩ => ⟨S2x64x94, .f32⟩
  | .hbm, ⟨14, _⟩ => ⟨S94, .f32⟩
  | .hbm, ⟨15, _⟩ => ⟨S_, .f32⟩
  | .hbm, ⟨16, _⟩ => ⟨S94, .f32⟩
  | .hbm, ⟨17, _⟩ => ⟨S94, .f32⟩
  | .hbm, ⟨18, _⟩ => ⟨S2x94x64, .f32⟩
  | .hbm, ⟨19, _⟩ => ⟨S1x94x1, .f32⟩
  | .hbm, ⟨20, _⟩ => ⟨S2x94x64, .f32⟩
  | .hbm, ⟨21, _⟩ => ⟨S2x94x64, .f32⟩
  | .local _ .vmem, ⟨0, _⟩ => ⟨S1x64x1x112x96, .f32⟩
  | .local _ .vmem, ⟨1, _⟩ => ⟨S1x64x1x112x96, .f32⟩
  | .local _ .vmem, ⟨2, _⟩ => ⟨S1x112x96, .i32⟩
  | .local _ .vmem, ⟨3, _⟩ => ⟨S1x112x96, .i32⟩
  | .local _ .vmem, ⟨4, _⟩ => ⟨S1x64x128, .f32⟩
  | .local _ .vmem, ⟨5, _⟩ => ⟨S1x64x128, .f32⟩
  | .local _ .vmem, ⟨6, _⟩ => ⟨S64x128, .f32⟩
  | _, _ => ⟨S2x64x96x112x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 96], ![false, false]⟩

def k0_cond2 (i : grid0.Coords) : BitVec 1 :=
  let arg1 : BitVec 32 := BitVec.ofNat 32 (i 1).val
  let c95_i32 : BitVec 32 := 95#32
  let v22 : BitVec 1 := Scalar.cmpi .eq arg1 c95_i32
  let v23 : BitVec 32 := Scalar.extui v22
  let c0_i32_12 : BitVec 32 := 0#32
  let v24 : BitVec 1 := Scalar.cmpi .ne v23 c0_i32_12
  v24

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x1x112x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x112x96 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  pads_S91x109x91_S96x112x96_050_030_050 : S91x109x91.Pads (![0, 0, 0] : Fin 3 → Nat) ![5, 3, 5] ![0, 0, 0] S96x112x96
  h_S_ : 0 < S_.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x64x1x112x96_S1x64x1x112x96_0_0_0_0_0 : ∀ a, (![0, 0, 0, 0, 0] : Fin 5 → Nat) a + S1x64x1x112x96.size a ≤ S1x64x1x112x96.size a
  h_S1x64x1x112x96 : 0 < S1x64x1x112x96.numel
  shapeCasts_S1x64x1x112x96_S64x112x96 : S1x64x1x112x96.ShapeCasts S64x112x96
  inb_S1x112x96_S1x112x96_0_0_0 : ∀ a, (![0, 0, 0] : Fin 3 → Nat) a + S1x112x96.size a ≤ S1x112x96.size a
  h_S1x112x96 : 0 < S1x112x96.numel
  shapeCasts_S1x112x96_S112x96 : S1x112x96.ShapeCasts S112x96
  shapeCasts_S64x112x96_S64x10752 : S64x112x96.ShapeCasts S64x10752
  bitsLt_bf16_f32 : FTy.bits .bf16 < FTy.bits .f32
  shapeCasts_S112x96_S1x10752 : S112x96.ShapeCasts S1x10752
  iota_S128x10752_d0_w32 : S128x10752.Iotas .tc 32 [0]
  broadcasts_S1x10752_S128x10752 : S1x10752.Broadcasts S128x10752
  natLt_1_32 : 1 < 32
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  shapeCasts_S64x128_S1x64x128 : S64x128.ShapeCasts S1x64x128
  shapeCasts_S91x109x91_S902629 : S91x109x91.ShapeCasts S902629
  bcast_S_S902629 : S_.BroadcastsInDim S902629 (![] : Fin 0 → Fin S902629.rank)
  bcast_S_S95 : S_.BroadcastsInDim S95 (![] : Fin 0 → Fin S95.rank)
  bcast_S902629_S902629x1_0 : S902629.BroadcastsInDim S902629x1 (![0] : Fin 1 → Fin S902629x1.rank)
  slices_S2x64x128_S2x64x94_0_0_1 : S2x64x128.Slices ![0, 0, 1] S2x64x94
  slices_S95_S94_1 : S95.Slices ![1] S94
  bcast_S_S94 : S_.BroadcastsInDim S94 (![] : Fin 0 → Fin S94.rank)
  transposes_S2x64x94_S2x94x64_0_2_1 : S2x64x94.Transposes [0, 2, 1] S2x94x64
  bcast_S94_S1x94x1_1 : S94.BroadcastsInDim S1x94x1 (![1] : Fin 1 → Fin S1x94x1.rank)
  bcast_S1x94x1_S2x94x64_0_1_2 : S1x94x1.BroadcastsInDim S2x94x64 (![0, 1, 2] : Fin 3 → Fin S2x94x64.rank)
  dot_S64x10752_S128x10752_S64x128_1_1_0_0_n_n_wf : DotDims.WF S64x10752 S128x10752 S64x128 [1] [1] [0] [0] [] []
  scatter_S95_S902629x1_S902629_n_0_0_1_wf : ScatterDims.WF S95 S902629x1 S902629 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x1x112x96.size a ≤ S2x64x96x112x96.size a
  hwx0_0 : ∀ i : grid0.Coords, EltTy.bits .f32 = 32 ∨ (Rect.block (s := S2x64x96x112x96) S1x64x1x112x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x112x96.size a ≤ S96x112x96.size a
  hwx0_1 : ∀ i : grid0.Coords, EltTy.bits .i32 = 32 ∨ (Rect.block (s := S96x112x96) S1x112x96.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x128.size a ≤ S2x64x128.size a
  hwx0_2 : ∀ i : grid0.Coords, EltTy.bits .f32 = 32 ∨ (Rect.block (s := S2x64x128) S1x64x128.size (cc0_transform_2 i) (hinb0_2 i)).WholeWords (EltTy.packing .f32)

variable [Facts₀]

def dot_S64x10752_S128x10752_S64x128_1_1_0_0_n_n : DotDims S64x10752 S128x10752 S64x128 where
  lhsContracting := [1]
  rhsContracting := [1]
  lhsNonContracting := [0]
  rhsNonContracting := [0]
  lhsBatch := []
  rhsBatch := []
  wf := dot_S64x10752_S128x10752_S64x128_1_1_0_0_n_n_wf
def scatter_S95_S902629x1_S902629_n_0_0_1 : ScatterDims S95 S902629x1 S902629 where
  updateWindowDims := []
  insertedWindowDims := [0]
  scatterDimsToOperandDims := [0]
  indexVectorDim := 1
  wf := scatter_S95_S902629x1_S902629_n_0_0_1_wf

abbrev win0_0 : Pipeline.Window sig grid0 :=
  Pipeline.Window.ofSpec (Memref.whole main_arg0) S1x64x1x112x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x112x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2x64x96x112x96 : Shape := ⟨5, ![2, 64, 96, 112, 96]⟩
abbrev S91x109x91 : Shape := ⟨3, ![91, 109, 91]⟩
abbrev S2x64x91x109x91 : Shape := ⟨5, ![2, 64, 91, 109, 91]⟩
abbrev S902629 : Shape := ⟨1, ![902629]⟩
abbrev S2x64x902629 : Shape := ⟨3, ![2, 64, 902629]⟩
abbrev S902629x2x64 : Shape := ⟨3, ![902629, 2, 64]⟩
abbrev S902629x128 : Shape := ⟨2, ![902629, 128]⟩
abbrev S_ : Shape := ⟨0, ![]⟩
abbrev S95x128 : Shape := ⟨2, ![95, 128]⟩
abbrev S902629x1 : Shape := ⟨2, ![902629, 1]⟩
abbrev S95 : Shape := ⟨1, ![95]⟩
abbrev S94x128 : Shape := ⟨2, ![94, 128]⟩
abbrev S94x2x64 : Shape := ⟨3, ![94, 2, 64]⟩
abbrev S94 : Shape := ⟨1, ![94]⟩
abbrev S2x94x64 : Shape := ⟨3, ![2, 94, 64]⟩
abbrev S1x94x1 : Shape := ⟨3, ![1, 94, 1]⟩

abbrev nBuf : Space → Nat
  | .hbm => 27
  | .vmem => 0
  | .smem => 0
  | _ => 0

abbrev bufTy : (tb : Table) → Fin (tcTables nBuf tb) → BufTy
  | .hbm, ⟨0, _⟩ => ⟨S2x64x96x112x96, .f32⟩
  | .hbm, ⟨1, _⟩ => ⟨S91x109x91, .i32⟩
  | .hbm, ⟨2, _⟩ => ⟨S2x64x91x109x91, .f32⟩
  | .hbm, ⟨3, _⟩ => ⟨S902629, .i32⟩
  | .hbm, ⟨4, _⟩ => ⟨S2x64x902629, .f32⟩
  | .hbm, ⟨5, _⟩ => ⟨S902629x2x64, .f32⟩
  | .hbm, ⟨6, _⟩ => ⟨S902629x128, .f32⟩
  | .hbm, ⟨7, _⟩ => ⟨S_, .f32⟩
  | .hbm, ⟨8, _⟩ => ⟨S95x128, .f32⟩
  | .hbm, ⟨9, _⟩ => ⟨S902629x1, .i32⟩
  | .hbm, ⟨10, _⟩ => ⟨S95x128, .f32⟩
  | .hbm, ⟨11, _⟩ => ⟨S_, .f32⟩
  | .hbm, ⟨12, _⟩ => ⟨S902629, .f32⟩
  | .hbm, ⟨13, _⟩ => ⟨S_, .f32⟩
  | .hbm, ⟨14, _⟩ => ⟨S95, .f32⟩
  | .hbm, ⟨15, _⟩ => ⟨S902629x1, .i32⟩
  | .hbm, ⟨16, _⟩ => ⟨S95, .f32⟩
  | .hbm, ⟨17, _⟩ => ⟨S94x128, .f32⟩
  | .hbm, ⟨18, _⟩ => ⟨S94x2x64, .f32⟩
  | .hbm, ⟨19, _⟩ => ⟨S94, .f32⟩
  | .hbm, ⟨20, _⟩ => ⟨S_, .f32⟩
  | .hbm, ⟨21, _⟩ => ⟨S94, .f32⟩
  | .hbm, ⟨22, _⟩ => ⟨S94, .f32⟩
  | .hbm, ⟨23, _⟩ => ⟨S2x94x64, .f32⟩
  | .hbm, ⟨24, _⟩ => ⟨S1x94x1, .f32⟩
  | .hbm, ⟨25, _⟩ => ⟨S2x94x64, .f32⟩
  | .hbm, ⟨26, _⟩ => ⟨S2x94x64, .f32⟩
  | _, _ => ⟨S2x64x96x112x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]

class Facts₀ : Prop where
  slices_S2x64x96x112x96_S2x64x91x109x91_0_0_0_0_0 : S2x64x96x112x96.Slices ![0, 0, 0, 0, 0] S2x64x91x109x91
  shapeCasts_S91x109x91_S902629 : S91x109x91.ShapeCasts S902629
  shapeCasts_S2x64x91x109x91_S2x64x902629 : S2x64x91x109x91.ShapeCasts S2x64x902629
  transposes_S2x64x902629_S902629x2x64_2_0_1 : S2x64x902629.Transposes [2, 0, 1] S902629x2x64
  shapeCasts_S902629x2x64_S902629x128 : S902629x2x64.ShapeCasts S902629x128
  bcast_S_S95x128 : S_.BroadcastsInDim S95x128 (![] : Fin 0 → Fin S95x128.rank)
  bcast_S902629_S902629x1_0 : S902629.BroadcastsInDim S902629x1 (![0] : Fin 1 → Fin S902629x1.rank)
  bcast_S_S902629 : S_.BroadcastsInDim S902629 (![] : Fin 0 → Fin S902629.rank)
  bcast_S_S95 : S_.BroadcastsInDim S95 (![] : Fin 0 → Fin S95.rank)
  slices_S95x128_S94x128_1_0 : S95x128.Slices ![1, 0] S94x128
  shapeCasts_S94x128_S94x2x64 : S94x128.ShapeCasts S94x2x64
  slices_S95_S94_1 : S95.Slices ![1] S94
  bcast_S_S94 : S_.BroadcastsInDim S94 (![] : Fin 0 → Fin S94.rank)
  transposes_S94x2x64_S2x94x64_1_0_2 : S94x2x64.Transposes [1, 0, 2] S2x94x64
  bcast_S94_S1x94x1_1 : S94.BroadcastsInDim S1x94x1 (![1] : Fin 1 → Fin S1x94x1.rank)
  bcast_S1x94x1_S2x94x64_0_1_2 : S1x94x1.BroadcastsInDim S2x94x64 (![0, 1, 2] : Fin 3 → Fin S2x94x64.rank)
  scatter_S95x128_S902629x1_S902629x128_1_0_0_1_wf : ScatterDims.WF S95x128 S902629x1 S902629x128 [1] [0] [0] 1
  scatter_S95_S902629x1_S902629_n_0_0_1_wf : ScatterDims.WF S95 S902629x1 S902629 [] [0] [0] 1

variable [Facts₀]

def scatter_S95x128_S902629x1_S902629x128_1_0_0_1 : ScatterDims S95x128 S902629x1 S902629x128 where
  updateWindowDims := [1]
  insertedWindowDims := [0]
  scatterDimsToOperandDims := [0]
  indexVectorDim := 1
  wf := scatter_S95x128_S902629x1_S902629x128_1_0_0_1_wf
def scatter_S95_S902629x1_S902629_n_0_0_1 : ScatterDims S95 S902629x1 S902629 where
  updateWindowDims := []
  insertedWindowDims := [0]
  scatterDimsToOperandDims := [0]
  indexVectorDim := 1
  wf := scatter_S95_S902629x1_S902629_n_0_0_1_wf

class Facts : Prop extends Facts₀ where

variable [Facts]
-- ==== Proof.Pieces.lean ====
/-
  What each control case of the kernel body leaves behind, as values.

  The body keeps a [64, 128] accumulator across the grid points of one batch element.  Writing P(x, a, acc) for the body's
  one arithmetic step (the accumulator plus the product of the feature slab x with the one-hot matrix of the label slab a):
    at the first depth slab the accumulator is reset to the zero block Z and then updated:  P(x, a, Z);
    at every later slab it is updated from what the slab before left:                        P(x, a, acc);
    at the last slab the updated accumulator is also copied, as one [1, 64, 128] block, to the output buffer.
  Each case stores whole buffers, so what a buffer holds afterwards is the last store's value.
-/
import proofs.«428096_j80771154968757_2_alg».proof.Proof.Gen.KernelIdeal.Frame
import Idealize.ShloMosaic.Lib.Pipeline.Value
import Idealize.ShloMosaic.Lib.Tactic

noncomputable section

namespace Cert.Roi.Pieces

open Idealize.ShloMosaic Idealize.ShloMosaic.TcCoe Idealize.SL.Sem Cert.KernelIdeal Cert.KernelIdeal.Gen

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl
theorem zeros5 : (![0, 0, 0, 0, 0] : Fin 5 → Nat) = fun _ => 0 := funext fun a => by fin_cases a <;> rfl

/-- First slab: the accumulator ends at the step applied to the zero block (the reset is read back by the update). -/
theorem acc_first (c : Dev nD) (i : grid0.Coords) (arg2 : Memref sig .tc .vmem S1x64x1x112x96 .f32) (harg2 : arg2.IsWhole) (arg3 : Memref sig .tc .vmem S1x112x96 .i32) (harg3 : arg3.IsWhole) (arg4 : Memref sig .tc .vmem S1x64x128 .f32) (harg4 : arg4.IsWhole) (arg5 : Memref sig .tc .vmem S64x128 .f32) (harg5 : arg5.IsWhole) (hc0 : cond0_0 i) (hc1 : ¬cond0_1 i)
    (x0 : Vec F S1x64x1x112x96 .f32) (x1 : Vec F S1x112x96 .i32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S64x128) zeros2, View.readCov_unit_zero (S := S64x128) _ zeros2]
  simp only [View.readAt_eq_ld, harg2.read_unread, harg3.read_unread, harg5.read_unread, View.ld_unit_zero (S := S1x64x1x112x96) zeros5, View.ld_unit_zero (S := S1x112x96) zeros3, View.ld_unit_zero (S := S64x128) zeros2]

/-- A middle slab: the accumulator ends at the step applied to what the slab before left. -/
theorem acc_middle (c : Dev nD) (i : grid0.Coords) (arg2 : Memref sig .tc .vmem S1x64x1x112x96 .f32) (harg2 : arg2.IsWhole) (arg3 : Memref sig .tc .vmem S1x112x96 .i32) (harg3 : arg3.IsWhole) (arg4 : Memref sig .tc .vmem S1x64x128 .f32) (harg4 : arg4.IsWhole) (arg5 : Memref sig .tc .vmem S64x128 .f32) (harg5 : arg5.IsWhole) (hc0 : ¬cond0_0 i) (hc1 : ¬cond0_1 i)
    (x0 : Vec F S1x64x1x112x96 .f32) (x1 : Vec F S1x112x96 .i32) (xs0 : Vec F S64x128 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero zeros2]
  simp only [View.readAt_eq_ld, harg2.read_unread, harg3.read_unread, harg5.read_unread, View.ld_unit_zero (S := S1x64x1x112x96) zeros5, View.ld_unit_zero (S := S1x112x96) zeros3, View.ld_unit_zero (S := S64x128) zeros2]

/-- The last slab: the accumulator is updated in the same way, -/
theorem acc_last (c : Dev nD) (i : grid0.Coords) (arg2 : Memref sig .tc .vmem S1x64x1x112x96 .f32) (harg2 : arg2.IsWhole) (arg3 : Memref sig .tc .vmem S1x112x96 .i32) (harg3 : arg3.IsWhole) (arg4 : Memref sig .tc .vmem S1x64x128 .f32) (harg4 : arg4.IsWhole) (arg5 : Memref sig .tc .vmem S64x128 .f32) (harg5 : arg5.IsWhole) (hc0 : ¬cond0_0 i) (hc1 : cond0_1 i)
    (x0 : Vec F S1x64x1x112x96 .f32) (x1 : Vec F S1x112x96 .i32) (xs0 : Vec F S64x128 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero zeros2]
  simp only [View.readAt_eq_ld, harg2.read_unread, harg3.read_unread, harg5.read_unread, View.ld_unit_zero (S := S1x64x1x112x96) zeros5, View.ld_unit_zero (S := S1x112x96) zeros3, View.ld_unit_zero (S := S64x128) zeros2]

/-- and the output buffer receives the updated accumulator as one block. -/
theorem out_last (c : Dev nD) (i : grid0.Coords) (arg2 : Memref sig .tc .vmem S1x64x1x112x96 .f32) (harg2 : arg2.IsWhole) (arg3 : Memref sig .tc .vmem S1x112x96 .i32) (harg3 : arg3.IsWhole) (arg4 : Memref sig .tc .vmem S1x64x128 .f32) (harg4 : arg4.IsWhole) (arg5 : Memref sig .tc .vmem S64x128 .f32) (harg5 : arg5.IsWhole) (hc0 : ¬cond0_0 i) (hc1 : cond0_1 i)
    (x0 : Vec F S1x64x1x112x96 .f32) (x1 : Vec F S1x112x96 .i32) (xs0 : Vec F S64x128 .f32) :
    out0_C_2 c i arg2 harg2 arg3 harg3 arg4 harg4 arg5 harg5 hc0 hc1 x0 x1 xs0 = k0_pay3 (k0_pay2 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero zeros3]
  simp only [View.readCov_unit_zero (S := S64x128) _ zeros2, View.readAt_eq_ld, harg2.read_unread, harg3.read_unread, harg5.read_unread, View.ld_unit_zero (S := S1x64x1x112x96) zeros5, View.ld_unit_zero (S := S1x112x96) zeros3, View.ld_unit_zero (S := S64x128) zeros2]

end Cert.Roi.Pieces

end
-- ==== Proof.LibScatterGather.lean ====
/-
  The host's gather and accumulating scatter, read at one index, for the shapes this program uses: a table of `n` rows
  (scalars, or rows of `h` numbers) addressed through an [m × 1] column of 32-bit start indices.

  A SCATTER reads the start index signed and does not clamp it: update `e` is added to row `landing n (idx e)`, which is
  nowhere when the index is negative or at least `n` (the update is dropped). So the result at row `k` is the operand
  there plus the sum of the updates whose index lands on `k`; for rows of `h` numbers, feature by feature.
  A GATHER reads the start index signed and clamps it into the table: result row `e` is the table's row
  `rowOf n (idx e)`.
  Two facts tie them together: an index that lands on `k` is the word of `k` (so comparing an index with the word of a
  row number decides landing), and an index that lands on `k` is not negative, so the wrap-around of negative indices
  (`index + n` when negative) leaves it alone and the clamped read of it is row `k`.
-/
import Idealize.ShloMosaic.PureOps.Ideal
import Idealize.ShloMosaic.PureOps.Ideal.Laws
import Idealize.ShloMosaic.Lib.ValueIdx
import Idealize.ShloMosaic.Lib.StableHlo.Predicate

noncomputable section

namespace Cert.Decode

open Idealize.ShloMosaic Idealize.ShloMosaic.ValueIdx

/-- Where a start index (a 32-bit word read signed) lands among `n` rows: nowhere when negative or at least `n`. -/
def landing (n : Nat) (w : BitVec 32) : Option (Fin n) :=
  if h : 0 ≤ w.toInt ∧ w.toInt < n then some ⟨w.toInt.toNat, by omega⟩ else none

/-- The row a gather reads for a start index: the index read signed and clamped into the table. -/
def rowOf (n : Nat) (hn : 0 < n) (w : BitVec 32) : Fin n := ⟨min w.toInt.toNat (n - 1), by omega⟩

/-! ## The accumulating scatter of scalars: where update `j` lands -/

section ScatterScalar

variable {n m : Nat} (d : ScatterDims ⟨1, ![n]⟩ ⟨2, ![m, 1]⟩ ⟨1, ![m]⟩)

/-- Update `j` reads its start index at row `j 0` of the index column: the one update axis is the scatter axis, and the
    index vector has the single component 0. -/
theorem siIdx_scalar (hsd : d.scatterDimsToOperandDims = [0]) (hiv : d.indexVectorDim = 1)
    (j : (⟨1, ![m]⟩ : Shape).Idx) (c : Fin d.scatterDimsToOperandDims.length) : d.siIdx j c = ix2 (j 0) 0 := by
  have hl : d.scatterDimsToOperandDims.length = 1 := by rw [hsd]; rfl
  funext b
  match b with
  | ⟨0, _⟩ =>
    unfold ScatterDims.siIdx
    rw [dif_neg (by rw [hiv]; simp)]
    unfold ScatterDims.siCoord
    apply Fin.ext
    simp only [Fin.val_cast]
    have e : ∀ X : Fin 1, (j X).val = (j 0).val := fun X => by
      have hX : X = 0 := Subsingleton.elim _ _
      subst hX; rfl
    exact e _
  | ⟨1, _⟩ =>
    unfold ScatterDims.siIdx
    rw [dif_pos (by rw [hiv])]
    apply Fin.ext
    show c.val = 0
    have := c.isLt
    omega

/-- The window of update `j` starts at its index, read signed. -/
theorem start_scalar (hsd : d.scatterDimsToOperandDims = [0]) (hiv : d.indexVectorDim = 1)
    (idx : IVec ⟨2, ![m, 1]⟩ 32) (j : (⟨1, ![m]⟩ : Shape).Idx) (a : Fin 1) :
    d.start j idx a = (idx (ix2 (j 0) 0)).toInt := by
  have ha : a ∈ d.scatterDimsToOperandDims := by
    rw [hsd, Subsingleton.elim a 0]; exact List.mem_singleton.mpr rfl
  unfold ScatterDims.start
  rw [dif_pos ha, siIdx_scalar d hsd hiv]
  rfl

/-- The operand's one axis is inserted: an update has no window coordinate on it. -/
theorem window_scalar (hiw : d.insertedWindowDims = [0]) (j : (⟨1, ![m]⟩ : Shape).Idx) (a : Fin 1) : d.window j a = 0 := by
  have ha : a ∉ d.sKept := by
    rw [Subsingleton.elim a 0]
    simp [ScatterDims.sKept, Shape.kept, hiw]
  unfold ScatterDims.window
  rw [dif_neg ha]

/-- Update `j` lands on the row its index lands on. -/
theorem resultIdx_scalar (hiw : d.insertedWindowDims = [0]) (hsd : d.scatterDimsToOperandDims = [0]) (hiv : d.indexVectorDim = 1)
    (idx : IVec ⟨2, ![m, 1]⟩ 32) (j : (⟨1, ![m]⟩ : Shape).Idx) :
    d.resultIdx? j idx = (landing n (idx (ix2 (j 0) 0))).map ix1 := by
  have hsw : ∀ a : Fin 1, d.start j idx a + (d.window j a : Int) = (idx (ix2 (j 0) 0)).toInt := fun a => by
    rw [start_scalar d hsd hiv, window_scalar d hiw]; simp
  unfold ScatterDims.resultIdx? landing
  by_cases hw : 0 ≤ (idx (ix2 (j 0) 0)).toInt ∧ (idx (ix2 (j 0) 0)).toInt < n
  · rw [dif_pos (fun a => by rw [hsw a, Subsingleton.elim a 0]; exact hw), dif_pos hw]
    simp only [Option.map_some]
    congr 1
    funext a
    have ha : a = 0 := Subsingleton.elim _ _
    subst ha
    apply Fin.ext
    show (d.start j idx 0 + (d.window j 0 : Int)).toNat = (idx (ix2 (j 0) 0)).toInt.toNat
    rw [hsw 0]
  · rw [dif_neg (fun hall => hw (by have h0 := hall 0; rw [hsw 0] at h0; exact h0)), dif_neg hw]
    rfl

end ScatterScalar

/-! ## The accumulating scatter of rows: where update `j` lands -/

section ScatterRows

variable {n m h : Nat} (d : ScatterDims ⟨2, ![n, h]⟩ ⟨2, ![m, 1]⟩ ⟨2, ![m, h]⟩)

/-- Of the update's two axes, axis 1 is the window axis, so axis 0 is the only scatter axis. -/
theorem uScatter_rows (huw : d.updateWindowDims = [1]) (X : Fin 2) (hX : X ∈ d.uScatter) : X = 0 := by
  have hne : X ≠ 1 := by simpa [ScatterDims.uScatter, Shape.kept, huw] using hX
  have hlt : X.val < 2 := X.isLt
  have hv : X.val ≠ 1 := fun hv => hne (Fin.ext hv)
  apply Fin.ext
  show X.val = 0
  omega

/-- Update `j` reads its start index at row `j 0` of the index column. -/
theorem siIdx_rows (huw : d.updateWindowDims = [1]) (hsd : d.scatterDimsToOperandDims = [0]) (hiv : d.indexVectorDim = 1)
    (j : (⟨2, ![m, h]⟩ : Shape).Idx) (c : Fin d.scatterDimsToOperandDims.length) : d.siIdx j c = ix2 (j 0) 0 := by
  have hl : d.scatterDimsToOperandDims.length = 1 := by rw [hsd]; rfl
  funext b
  match b with
  | ⟨0, _⟩ =>
    unfold ScatterDims.siIdx
    rw [dif_neg (by rw [hiv]; simp)]
    unfold ScatterDims.siCoord
    apply Fin.ext
    simp only [Fin.val_cast]
    have e : ∀ X : Fin 2, X ∈ d.uScatter → (j X).val = (j 0).val := fun X hX => by rw [uScatter_rows d huw X hX]
    exact e _ (List.getElem_mem _)
  | ⟨1, _⟩ =>
    unfold ScatterDims.siIdx
    rw [dif_pos (by rw [hiv])]
    apply Fin.ext
    show c.val = 0
    have := c.isLt
    omega

/-- On the table's row axis the window of update `j` starts at its index, read signed. -/
theorem start_rows0 (huw : d.updateWindowDims = [1]) (hsd : d.scatterDimsToOperandDims = [0]) (hiv : d.indexVectorDim = 1)
    (idx : IVec ⟨2, ![m, 1]⟩ 32) (j : (⟨2, ![m, h]⟩ : Shape).Idx) :
    d.start j idx 0 = (idx (ix2 (j 0) 0)).toInt := by
  have ha : (0 : Fin 2) ∈ d.scatterDimsToOperandDims := by rw [hsd]; exact List.mem_singleton.mpr rfl
  unfold ScatterDims.start
  rw [dif_pos ha, siIdx_rows d huw hsd hiv]
  rfl

/-- The feature axis is not start-indexed: the window starts at 0 there. -/
theorem start_rows1 (hsd : d.scatterDimsToOperandDims = [0]) (idx : IVec ⟨2, ![m, 1]⟩ 32) (j : (⟨2, ![m, h]⟩ : Shape).Idx) :
    d.start j idx 1 = 0 := by
  have ha : (1 : Fin 2) ∉ d.scatterDimsToOperandDims := by rw [hsd]; simp
  unfold ScatterDims.start
  rw [dif_neg ha]

/-- The row axis is inserted: no window coordinate on it. -/
theorem window_rows0 (hiw : d.insertedWindowDims = [0]) (j : (⟨2, ![m, h]⟩ : Shape).Idx) : d.window j 0 = 0 := by
  have ha : (0 : Fin 2) ∉ d.sKept := by simp [ScatterDims.sKept, Shape.kept, hiw]
  unfold ScatterDims.window
  rw [dif_neg ha]

/-- The feature axis takes the update's window coordinate, its coordinate on axis 1. -/
theorem window_rows1 (huw : d.updateWindowDims = [1]) (hiw : d.insertedWindowDims = [0]) (j : (⟨2, ![m, h]⟩ : Shape).Idx) :
    d.window j 1 = (j 1).val := by
  have ha : (1 : Fin 2) ∈ d.sKept := by simp [ScatterDims.sKept, Shape.kept, hiw]
  unfold ScatterDims.window
  rw [dif_pos ha]
  have e : ∀ X : Fin 2, X ∈ d.updateWindowDims → (j X).val = (j 1).val := fun X hX => by
    rw [huw] at hX; rw [List.mem_singleton.1 hX]
  exact e _ (List.getElem_mem _)

/-- Update `j` lands on the row its index lands on, at its own feature. -/
theorem resultIdx_rows (huw : d.updateWindowDims = [1]) (hiw : d.insertedWindowDims = [0]) (hsd : d.scatterDimsToOperandDims = [0])
    (hiv : d.indexVectorDim = 1) (idx : IVec ⟨2, ![m, 1]⟩ 32) (j : (⟨2, ![m, h]⟩ : Shape).Idx) :
    d.resultIdx? j idx
      = (landing n (idx (ix2 (j 0) 0))).map (fun r => (ix2 r (j 1) : (⟨2, ![n, h]⟩ : Shape).Idx)) := by
  have h0 : d.start j idx 0 + (d.window j 0 : Int) = (idx (ix2 (j 0) 0)).toInt := by
    rw [start_rows0 d huw hsd hiv, window_rows0 d hiw]; simp
  have h1 : d.start j idx 1 + (d.window j 1 : Int) = ((j 1).val : Int) := by
    rw [start_rows1 d hsd, window_rows1 d huw hiw]; simp
  have hj1 : ((j 1).val : Int) < (h : Int) := by exact_mod_cast (j 1).isLt
  unfold ScatterDims.resultIdx? landing
  by_cases hw : 0 ≤ (idx (ix2 (j 0) 0)).toInt ∧ (idx (ix2 (j 0) 0)).toInt < n
  · have hall : ∀ a : Fin 2, 0 ≤ d.start j idx a + (d.window j a : Int) ∧
        d.start j idx a + (d.window j a : Int) < ((⟨2, ![n, h]⟩ : Shape).size a : Int) :=
      Fin.forall_fin_two.2 ⟨by rw [h0]; exact hw, by rw [h1]; exact ⟨by omega, hj1⟩⟩
    rw [dif_pos hall, dif_pos hw]
    simp only [Option.map_some]
    congr 1
    funext a
    revert a
    refine Fin.forall_fin_two.2 ⟨?_, ?_⟩
    · apply Fin.ext
      show (d.start j idx 0 + (d.window j 0 : Int)).toNat = (idx (ix2 (j 0) 0)).toInt.toNat
      rw [h0]
    · apply Fin.ext
      show (d.start j idx 1 + (d.window j 1 : Int)).toNat = (j 1).val
      rw [h1]; simp
  · rw [dif_neg (fun hall => hw (by have a0 := hall 0; rw [h0] at a0; exact a0)), dif_neg hw]
    rfl

end ScatterRows

/-- Two rank-2 indices that are equal have equal coordinates. -/
theorem ix2_inj {n0 n1 : Nat} {a a' : Fin n0} {b b' : Fin n1} (h : ix2 a b = ix2 a' b') : a = a' ∧ b = b' :=
  ⟨congrFun h 0, congrFun h 1⟩

/-- Two rank-1 indices with the same coordinate are the same index. -/
theorem ix1_inj {n : Nat} {a b : Fin n} (h : ix1 a = ix1 b) : a = b := congrFun h 0

/-- The accumulating scatter of scalars at row `k`. -/
theorem scatterAdd_scalar {n m : Nat} (d : ScatterDims ⟨1, ![n]⟩ ⟨2, ![m, 1]⟩ ⟨1, ![m]⟩)
    (huw : d.updateWindowDims = []) (hiw : d.insertedWindowDims = [0]) (hsd : d.scatterDimsToOperandDims = [0]) (hiv : d.indexVectorDim = 1)
    (x : (⟨1, ![n]⟩ : Shape).Idx → EReal) (idx : IVec ⟨2, ![m, 1]⟩ 32) (upd : (⟨1, ![m]⟩ : Shape).Idx → EReal) (k : Fin n) :
    Host.scatterAdd (F := Ideal) (φ := .f32) d x idx upd (ix1 k)
      = x (ix1 k) + ∑ e ∈ Finset.univ.filter (fun e : Fin m => landing n (idx (ix2 e 0)) = some k), upd (ix1 e) := by
  have hmem : ∀ j : (⟨1, ![m]⟩ : Shape).Idx,
      d.resultIdx? j idx = some (ix1 k) ↔ landing n (idx (ix2 (j 0) 0)) = some k := fun j => by
    rw [resultIdx_scalar d hiw hsd hiv, Option.map_eq_some_iff]
    constructor
    · rintro ⟨a, ha, hak⟩; rw [ha, ix1_inj hak]
    · intro hl; exact ⟨k, hl, rfl⟩
  show x (ix1 k) + ∑ j ∈ Finset.univ.filter (fun j => d.resultIdx? j idx = some (ix1 k)), upd j = _
  congr 1
  -- an update index is its one coordinate: the updates that land on row k are those whose index lands there
  refine Finset.sum_bij' (fun j _ => j 0) (fun e _ => ix1 e)
    (fun j hj => Finset.mem_filter.2 ⟨Finset.mem_univ _, (hmem j).1 (Finset.mem_filter.1 hj).2⟩)
    (fun e he => Finset.mem_filter.2 ⟨Finset.mem_univ _, (hmem (ix1 e)).2 (Finset.mem_filter.1 he).2⟩)
    (fun j _ => (eq_ix1 j).symm) (fun _ _ => rfl) (fun j _ => congrArg upd (eq_ix1 j))

/-- The accumulating scatter of rows at row `k`, feature `j`. -/
theorem scatterAdd_rows {n m h : Nat} (d : ScatterDims ⟨2, ![n, h]⟩ ⟨2, ![m, 1]⟩ ⟨2, ![m, h]⟩)
    (huw : d.updateWindowDims = [1]) (hiw : d.insertedWindowDims = [0]) (hsd : d.scatterDimsToOperandDims = [0]) (hiv : d.indexVectorDim = 1)
    (x : (⟨2, ![n, h]⟩ : Shape).Idx → EReal) (idx : IVec ⟨2, ![m, 1]⟩ 32) (upd : (⟨2, ![m, h]⟩ : Shape).Idx → EReal) (k : Fin n) (j : Fin h) :
    Host.scatterAdd (F := Ideal) (φ := .f32) d x idx upd (ix2 k j)
      = x (ix2 k j) + ∑ e ∈ Finset.univ.filter (fun e : Fin m => landing n (idx (ix2 e 0)) = some k), upd (ix2 e j) := by
  have hmem : ∀ q : (⟨2, ![m, h]⟩ : Shape).Idx,
      d.resultIdx? q idx = some (ix2 k j) ↔ landing n (idx (ix2 (q 0) 0)) = some k ∧ q 1 = j := fun q => by
    rw [resultIdx_rows d huw hiw hsd hiv]
    cases hl : landing n (idx (ix2 (q 0) 0)) with
    | none => simp
    | some r =>
      simp only [Option.map_some, Option.some.injEq]
      constructor
      · intro hak; exact ix2_inj hak
      · rintro ⟨hr, hq⟩; rw [hr, hq]
  show x (ix2 k j) + ∑ q ∈ Finset.univ.filter (fun q => d.resultIdx? q idx = some (ix2 k j)), upd q = _
  congr 1
  -- an update index is (its row, its feature): the updates that land on (k, j) are feature j of the rows whose index lands on k
  refine Finset.sum_bij' (fun q _ => q 0) (fun e _ => ix2 e j)
    (fun q hq => Finset.mem_filter.2 ⟨Finset.mem_univ _, ((hmem q).1 (Finset.mem_filter.1 hq).2).1⟩)
    (fun e he => Finset.mem_filter.2 ⟨Finset.mem_univ _, (hmem (ix2 e j)).2 ⟨(Finset.mem_filter.1 he).2, rfl⟩⟩)
    (fun q hq => ?_) (fun _ _ => rfl) (fun q hq => ?_)
  · have hq1 := ((hmem q).1 (Finset.mem_filter.1 hq).2).2
    show ix2 (q 0) j = q
    rw [← hq1]; exact (eq_ix2 q).symm
  · have hq1 := ((hmem q).1 (Finset.mem_filter.1 hq).2).2
    show upd q = upd (ix2 (q 0) j)
    rw [← hq1]; exact congrArg upd (eq_ix2 q)

/-! ## The gather of rows: which table entry result index `q` reads -/

section GatherRows

variable {N n h : Nat} (d : GatherDims ⟨2, ![N, h]⟩ ⟨2, ![n, 1]⟩ ⟨2, ![n, h]⟩)

/-- Of the result's two axes, axis 1 is the offset axis, so axis 0 is the only batch axis. -/
theorem batchDims_rows (hoff : d.offsetDims = [1]) (X : Fin 2) (hX : X ∈ d.batchDims) : X = 0 := by
  have hne : X ≠ 1 := by simpa [GatherDims.batchDims, Shape.kept, hoff] using hX
  have hlt : X.val < 2 := X.isLt
  have hv : X.val ≠ 1 := fun hv => hne (Fin.ext hv)
  apply Fin.ext
  show X.val = 0
  omega

/-- Result index `q` reads its start index at row `q 0` of the index column. -/
theorem gatherSiIdx_rows (hoff : d.offsetDims = [1]) (hsim : d.startIndexMap = [0]) (hivd : d.indexVectorDim = 1)
    (q : (⟨2, ![n, h]⟩ : Shape).Idx) (c : Fin d.startIndexMap.length) : d.siIdx q c = ix2 (q 0) 0 := by
  have hl : d.startIndexMap.length = 1 := by rw [hsim]; rfl
  funext b
  match b with
  | ⟨0, _⟩ =>
    unfold GatherDims.siIdx
    rw [dif_neg (by rw [hivd]; simp)]
    unfold GatherDims.siCoord
    apply Fin.ext
    simp only [Fin.val_cast]
    have e : ∀ X : Fin 2, X ∈ d.batchDims → (q X).val = (q 0).val := fun X hX => by rw [batchDims_rows d hoff X hX]
    exact e _ (List.getElem_mem _)
  | ⟨1, _⟩ =>
    unfold GatherDims.siIdx
    rw [dif_pos (by rw [hivd])]
    apply Fin.ext
    show c.val = 0
    have := c.isLt
    omega

/-- Result index `q` reads the table at (its start index clamped into the table, its own feature): the row axis is
    collapsed and start-indexed with a slice of one row, the feature axis is the offset axis and starts at 0. -/
theorem operandIdx_rows (hoff : d.offsetDims = [1]) (hcoll : d.collapsedSliceDims = [0]) (hob : d.operandBatchingDims = [])
    (hsim : d.startIndexMap = [0]) (hivd : d.indexVectorDim = 1) (hss : d.sliceSizes = ![1, h])
    (idx : IVec ⟨2, ![n, 1]⟩ 32) (q : (⟨2, ![n, h]⟩ : Shape).Idx) (hN : 0 < N) :
    d.operandIdx q idx = (ix2 (rowOf N hN (idx (ix2 (q 0) 0))) (q 1) : (⟨2, ![N, h]⟩ : Shape).Idx) := by
  have hb : ∀ a : Fin 2, a ∉ d.operandBatchingDims := fun a => by rw [hob]; exact List.not_mem_nil
  have hk0 : (0 : Fin 2) ∉ d.sKept := by rw [GatherDims.mem_sKept, hcoll]; simp
  have hk1 : (1 : Fin 2) ∈ d.sKept := by rw [GatherDims.mem_sKept, hcoll, hob]; simp
  have hm0 : (0 : Fin 2) ∈ d.startIndexMap := by rw [hsim]; exact List.mem_singleton.mpr rfl
  have hm1 : (1 : Fin 2) ∉ d.startIndexMap := by rw [hsim]; simp
  have hsl : d.sliceSizes 0 = 1 := by rw [hss]; rfl
  funext a
  revert a
  refine Fin.forall_fin_two.2 ⟨?_, ?_⟩
  · apply Fin.ext
    show d.start q idx 0 + d.batchCoord q 0 + d.offCoord q 0 = min (idx (ix2 (q 0) 0)).toInt.toNat (N - 1)
    rw [GatherDims.batchCoord_eq_zero _ _ _ (hb 0), GatherDims.offCoord_eq_zero _ _ _ hk0]
    simp only [Nat.add_zero]
    unfold GatherDims.start
    rw [dif_pos hm0, gatherSiIdx_rows d hoff hsim hivd, hsl]
    rfl
  · apply Fin.ext
    show d.start q idx 1 + d.batchCoord q 1 + d.offCoord q 1 = (q 1).val
    rw [GatherDims.batchCoord_eq_zero _ _ _ (hb 1)]
    unfold GatherDims.start GatherDims.offCoord
    rw [dif_neg hm1, dif_pos hk1]
    simp only [Nat.add_zero, Nat.zero_add]
    have e : ∀ X : Fin 2, X ∈ d.offsetDims → (q X).val = (q 1).val := fun X hX => by
      rw [hoff] at hX; rw [List.mem_singleton.1 hX]
    exact e _ (List.getElem_mem _)

end GatherRows

/-- The gather of scalars at result row `e`. -/
theorem gather_scalar {α : Type} {N n : Nat} (d : GatherDims ⟨1, ![N]⟩ ⟨2, ![n, 1]⟩ ⟨1, ![n]⟩)
    (hcoll : d.collapsedSliceDims = [0]) (hob : d.operandBatchingDims = []) (hsim : d.startIndexMap = [0]) (hivd : d.indexVectorDim = 1)
    (x : (⟨1, ![N]⟩ : Shape).Idx → α) (idx : IVec ⟨2, ![n, 1]⟩ 32) (e : Fin n) (hN : 0 < N) :
    Host.gather d x idx (ix1 e) = x (ix1 (rowOf N hN (idx (ix2 e 0)))) := by
  -- the take-shaped gather read at one position, its rank-1 index and its index-column row written by coordinates
  have h1 : ∀ {q : Nat} (p : Fin q), (Shape.Idx.ofFin p : (⟨1, ![q]⟩ : Shape).Idx) = ix1 p := fun p => by
    funext a; match a with | ⟨0, _⟩ => rfl
  have h2 : StableHlo.Predicate.ixP e = ix2 e 0 := by
    funext a; match a with | ⟨0, _⟩ => rfl | ⟨1, _⟩ => rfl
  rw [← h1 e, ← h2]
  exact (StableHlo.Predicate.gather_take d hcoll hob hsim hivd x idx e hN).trans (congrArg x (h1 _))

/-- The gather of rows at result row `e`, feature `j`. -/
theorem gather_rows {α : Type} {N n h : Nat} (d : GatherDims ⟨2, ![N, h]⟩ ⟨2, ![n, 1]⟩ ⟨2, ![n, h]⟩)
    (hoff : d.offsetDims = [1]) (hcoll : d.collapsedSliceDims = [0]) (hob : d.operandBatchingDims = [])
    (hsb : d.startIndicesBatchingDims = []) (hsim : d.startIndexMap = [0]) (hivd : d.indexVectorDim = 1) (hss : d.sliceSizes = ![1, h])
    (x : (⟨2, ![N, h]⟩ : Shape).Idx → α) (idx : IVec ⟨2, ![n, 1]⟩ 32) (e : Fin n) (j : Fin h) (hN : 0 < N) :
    Host.gather d x idx (ix2 e j) = x (ix2 (rowOf N hN (idx (ix2 e 0))) j) := by
  show x (d.operandIdx (ix2 e j) idx) = _
  rw [operandIdx_rows d hoff hcoll hob hsim hivd hss idx (ix2 e j) hN]
  rfl

/-- An index lands on row `k` exactly when it is the word of `k`. -/
theorem landing_eq_some_iff {n : Nat} (hn : n ≤ 2 ^ 31) (w : BitVec 32) (k : Fin n) :
    landing n w = some k ↔ w = BitVec.ofNat 32 k.val := by
  have hk := k.isLt
  have hwlt := w.isLt
  unfold landing
  constructor
  · intro h
    split at h
    · rename_i hw
      -- the landing row's number is the index read signed; a word below 2^31 reads the same signed and unsigned
      have hv : w.toInt.toNat = k.val := congrArg Fin.val (Option.some.inj h)
      have hc := BitVec.toInt_eq_toNat_cond w
      apply BitVec.eq_of_toNat_eq
      rw [BitVec.toNat_ofNat, Nat.mod_eq_of_lt (by omega)]
      split at hc <;> omega
    · exact absurd h (by simp)
  · intro h
    subst h
    have htn : (BitVec.ofNat 32 k.val).toNat = k.val := by
      rw [BitVec.toNat_ofNat]; exact Nat.mod_eq_of_lt (by omega)
    have hti : (BitVec.ofNat 32 k.val).toInt = (k.val : Int) := by
      rw [BitVec.toInt_eq_toNat_cond, htn, if_pos (by omega)]
    rw [dif_pos ⟨by omega, by omega⟩]
    congr 1
    apply Fin.ext
    show (BitVec.ofNat 32 k.val).toInt.toNat = k.val
    omega

/-- An index that lands on row `k` is not negative: wrapping negative indices around leaves it alone, and the clamped
    read of it is row `k`. -/
theorem rowOf_wrap_of_landing {n : Nat} (hn : 0 < n) (hn' : n < 2 ^ 31) (w : BitVec 32) (k : Fin n) (h : landing n w = some k) :
    rowOf n hn (Scalar.select (Scalar.cmpi .slt w 0#32) (w + BitVec.ofNat 32 n) w) = k := by
  unfold landing at h
  split at h
  · rename_i hw
    have hk : w.toInt.toNat = k.val := congrArg Fin.val (Option.some.inj h)
    -- a landing index is not below zero, so the signed comparison with zero fails and the select keeps the index
    have hs : w.slt 0#32 = false := by
      simp only [BitVec.slt, BitVec.toInt_zero, decide_eq_false_iff_not, not_lt]
      exact hw.1
    have hc : Scalar.cmpi .slt w 0#32 = 0#1 := by
      show BitVec.ofBool (w.slt 0#32) = 0#1
      rw [hs]; rfl
    rw [hc, select_zero]
    apply Fin.ext
    show min w.toInt.toNat (n - 1) = k.val
    omega
  · exact absurd h (by simp)

end Cert.Decode

end
-- ==== Proof.Spec.lean ====
/-
  The two sides of the ROI pooling identity, as plain functions of the argument arrays.

  The feature map is feat[b, c, d, h, w] over 2 x 64 x 96 x 112 x 96 and the label volume atlas[d, h, w] over
  91 x 109 x 91 (32-bit words).  Padded with the label 0 up to 96 x 112 x 96, the label volume is `atlasP`.

  The kernel's side: for a batch element b, channel c and segment row s (of 128), the sum over all depth slabs d and all
  10752 = 112 * 96 positions k = h * 96 + w of a slab, of feat[b, c, d, h, w] times the one-hot weight `hit` (1 when the padded
  label at (d, h, w) is the word of s, else 0): `slab` is one depth's share, `ksum` the total.

  The reference's side: the sum, over the 902629 = 91 * 109 * 91 voxels e = (d * 109 + h) * 91 + w of the unpadded volume
  whose label, read signed, lands on row r of 95, of feat[b, c, d, h, w]: `rsum`.
-/
import Idealize.ShloMosaic.PureOps.Ideal
import Idealize.ShloMosaic.Lib.ValueIdx
import proofs.«428096_j80771154968757_2_alg».proof.Proof.LibScatterGather

noncomputable section

namespace Cert.Roi

open Idealize.ShloMosaic Idealize.ShloMosaic.ValueIdx Cert.Decode

/-- The feature map's shape and the label volume's. -/
abbrev SF : Shape := ⟨5, ![2, 64, 96, 112, 96]⟩
abbrev SA : Shape := ⟨3, ![91, 109, 91]⟩

/-- The one-hot weight of a label word against segment row `s`. -/
def hit (w : BitVec 32) (s : Fin 128) : EReal := if w = BitVec.ofNat 32 s.val then 1 else 0

/-- The label volume padded with the label 0 up to the feature map's spatial extent. -/
def atlasP (atlas : SA.Idx → BitVec 32) (d : Fin 96) (h : Fin 112) (w : Fin 96) : BitVec 32 :=
  if hh : d.val < 91 ∧ h.val < 109 ∧ w.val < 91 then atlas (ix3 ⟨d.val, hh.1⟩ ⟨h.val, hh.2.1⟩ ⟨w.val, hh.2.2⟩) else 0#32

/-- Position k of a slab is row k / 96, column k % 96. -/
def hOf (k : Fin 10752) : Fin 112 := ⟨k.val / 96, by have := k.isLt; omega⟩
def wOf (k : Fin 10752) : Fin 96 := ⟨k.val % 96, by omega⟩

/-- One depth slab's share of the kernel's sum. -/
def slab (feat : SF.Idx → EReal) (atlas : SA.Idx → BitVec 32) (b : Fin 2) (d : Fin 96) (c : Fin 64) (s : Fin 128) : EReal :=
  ∑ k : Fin 10752, feat (ix5 b c d (hOf k) (wOf k)) * hit (atlasP atlas d (hOf k) (wOf k)) s

/-- The kernel's sum: all 96 depth slabs. -/
def ksum (feat : SF.Idx → EReal) (atlas : SA.Idx → BitVec 32) (b : Fin 2) (c : Fin 64) (s : Fin 128) : EReal :=
  ∑ d : Fin 96, slab feat atlas b d c s

/-- Voxel e of the flattened label volume is (e / 9919, e / 91 % 109, e % 91). -/
def dOfE (e : Fin 902629) : Fin 91 := ⟨e.val / 9919, by have := e.isLt; omega⟩
def hOfE (e : Fin 902629) : Fin 109 := ⟨e.val / 91 % 109, by omega⟩
def wOfE (e : Fin 902629) : Fin 91 := ⟨e.val % 91, by omega⟩

/-- A coordinate of the label volume as a coordinate of the feature map. -/
def up96 (d : Fin 91) : Fin 96 := ⟨d.val, by have := d.isLt; omega⟩
def up112 (h : Fin 109) : Fin 112 := ⟨h.val, by have := h.isLt; omega⟩

/-- The reference's sum: the voxels whose label lands on row `r`. -/
def rsum (feat : SF.Idx → EReal) (atlas : SA.Idx → BitVec 32) (b : Fin 2) (c : Fin 64) (r : Fin 95) : EReal :=
  ∑ e ∈ Finset.univ.filter (fun e : Fin 902629 => landing 95 (atlas (ix3 (dOfE e) (hOfE e) (wOfE e))) = some r),
    feat (ix5 b c (up96 (dOfE e)) (up112 (hOfE e)) (up96 (wOfE e)))

end Cert.Roi

end
-- ==== Proof.Payload.lean ====
/-
  The kernel body's arithmetic, read at an index, at the ideal values.

  The first payload is the zero splat.  The second is the accumulator plus a matrix product into the zero splat:
  the left factor is the feature block flattened to [64, 10752] (row c, position k = h * 96 + w reads
  feat[0, c, 0, k / 96, k % 96]); the right factor is the one-hot matrix [128, 10752] whose entry (s, k) compares the
  row number s with the label at position k, widened to a word and converted: 1 where they agree, else 0.  Both
  operands are contracted along their axis 1, so entry (c, s) of the product is the sum over k of the two entries
  (c, k) and (s, k).  The third payload adds a leading unit axis.
-/
import proofs.«428096_j80771154968757_2_alg».proof.Proof.Gen.KernelIdeal.Skeleton
import proofs.«428096_j80771154968757_2_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.Roi.Body

open Idealize.ShloMosaic Idealize.ShloMosaic.ValueIdx Cert.Roi Cert.KernelIdeal Cert.KernelIdeal.Gen

variable [Cert.KernelIdeal.Facts]
open Cert.KernelIdeal.Facts₀

/-! ## The product's dimension numbers: both operands contracted along axis 1 -/

/-- The product's dimension-number record. -/
abbrev D := dot_S64x10752_S128x10752_S64x128_1_1_0_0_n_n

/-- The left operand's row is the result's row. -/
theorem lhs_axis0 (j : S64x128.Idx) (k : D.contr.Idx) : (D.lhsIdx j k 0 : ℕ) = j 0 := by
  simp [DotDims.lhsIdx, D, dot_S64x10752_S128x10752_S64x128_1_1_0_0_n_n]; rfl

/-- The left operand's column is the contraction position. -/
theorem lhs_axis1 (j : S64x128.Idx) (k : D.contr.Idx) : (D.lhsIdx j k 1 : ℕ) = k ⟨0, by decide⟩ := by
  simp [DotDims.lhsIdx, D, dot_S64x10752_S128x10752_S64x128_1_1_0_0_n_n]; rfl

/-- The right operand's row is the result's column. -/
theorem rhs_axis0 (j : S64x128.Idx) (k : D.contr.Idx) : (D.rhsIdx j k 0 : ℕ) = j 1 := by
  simp [DotDims.rhsIdx, D, dot_S64x10752_S128x10752_S64x128_1_1_0_0_n_n]; rfl

/-- The right operand's column is the contraction position. -/
theorem rhs_axis1 (j : S64x128.Idx) (k : D.contr.Idx) : (D.rhsIdx j k 1 : ℕ) = k ⟨0, by decide⟩ := by
  simp [DotDims.rhsIdx, D, dot_S64x10752_S128x10752_S64x128_1_1_0_0_n_n]; rfl

/-- The contraction index is its one coordinate, a position of the slab. -/
def cE : D.contr.Idx ≃ Fin 10752 := contrEquiv1 D 10752 rfl rfl

theorem cE_symm_val (k : Fin 10752) : ((cE.symm k) ⟨0, by decide⟩ : ℕ) = k.val :=
  contrEquiv1_symm_val D 10752 rfl rfl k

/-- At result entry (c, s) and position k the left operand is read at (c, k). -/
theorem lhsIdx_at (c : Fin 64) (s : Fin 128) (k : Fin 10752) : D.lhsIdx (ix2 c s) (cE.symm k) = ix2 c k := by
  apply Shape.idx_ext₂
  · rw [lhs_axis0]
  · rw [lhs_axis1, cE_symm_val]

/-- At result entry (c, s) and position k the right operand is read at (s, k). -/
theorem rhsIdx_at (c : Fin 64) (s : Fin 128) (k : Fin 10752) : D.rhsIdx (ix2 c s) (cE.symm k) = ix2 s k := by
  apply Shape.idx_ext₂
  · rw [rhs_axis0]
  · rw [rhs_axis1, cE_symm_val]

/-- The product into the zero splat at (c, s): the sum over the slab's positions of the entries (c, k) and (s, k). -/
theorem matmul_at (lhs : FVec Ideal S64x10752 .bf16) (rhs : FVec Ideal S128x10752 .bf16) (c : Fin 64) (s : Fin 128) :
    FloatOps.matmul D none lhs rhs (constant S64x128 .f32 0x00000000#32) (ix2 c s)
      = ∑ k : Fin 10752, lhs (ix2 c k) * rhs (ix2 s k) := by
  rw [Ideal.matmul_constant_zero_apply, ← Equiv.sum_comp cE.symm]
  exact Finset.sum_congr rfl fun k _ => by rw [lhsIdx_at, rhsIdx_at]

/-! ## The two operands read at an index

The shape relations each operation cites are propositions: the lemmas take them as hypotheses, whatever their proofs. -/

/-- The left factor at (c, k): the feature block at (0, c, 0, k / 96, k % 96). -/
theorem left_at (x0 : Vec Ideal S1x64x1x112x96 .f32) (h1 : S1x64x1x112x96.ShapeCasts S64x112x96)
    (h2 : S64x112x96.ShapeCasts S64x10752) (hb : FTy.bits .bf16 < FTy.bits .f32) (c : Fin 64) (k : Fin 10752) :
    (truncf .bf16 (shapeCast S64x10752 (shapeCast S64x112x96 x0 h1) h2) hb : FVec Ideal S64x10752 .bf16) (ix2 c k)
      = x0 (ix5 (0 : Fin 1) c (0 : Fin 1) (hOf k) (wOf k)) := by
  rw [truncf_apply]
  refine (shapeCast_apply _ h2 (ix2 c k) (ix3 c (hOf k) (wOf k)) ?_).trans ?_
  · rw [Shape.rowMajor_val_three, Shape.rowMajor_val_two]
    show (c.val * 112 + k.val / 96) * 96 + k.val % 96 = c.val * 10752 + k.val
    omega
  · refine shapeCast_apply _ h1 (ix3 c (hOf k) (wOf k)) (ix5 (0 : Fin 1) c (0 : Fin 1) (hOf k) (wOf k)) ?_
    rw [Shape.rowMajor_val_five, Shape.rowMajor_val_three]
    show (((0 * 64 + c.val) * 1 + 0) * 112 + k.val / 96) * 96 + k.val % 96 = (c.val * 112 + k.val / 96) * 96 + k.val % 96
    omega

/-- The label row at (s, k): the label block at (0, k / 96, k % 96), whatever the row s. -/
theorem labels_at (x1 : Vec Ideal S1x112x96 .i32) (h1 : S1x112x96.ShapeCasts S112x96)
    (h2 : S112x96.ShapeCasts S1x10752) (h3 : S1x10752.Broadcasts S128x10752) (s : Fin 128) (k : Fin 10752) :
    (broadcastTo S128x10752 (shapeCast S1x10752 (shapeCast S112x96 x1 h1) h2) h3 : IVec S128x10752 32) (ix2 s k)
      = x1 (ix3 (0 : Fin 1) (hOf k) (wOf k)) := by
  refine (broadcastTo_1b_ab_apply _ h3 s k).trans ?_
  refine (shapeCast_apply _ h2 (ix2 (0 : Fin 1) k) (ix2 (hOf k) (wOf k)) ?_).trans ?_
  · rw [Shape.rowMajor_val_two, Shape.rowMajor_val_two]
    show k.val / 96 * 96 + k.val % 96 = 0 * 10752 + k.val
    omega
  · exact shapeCast_1ab_ab_apply x1 h1 (hOf k) (wOf k)

/-- The row numbers at (s, k): the word of s. -/
theorem rows_at (hi : S128x10752.Iotas .tc 32 [0]) (s : Fin 128) (k : Fin 10752) :
    (iota .tc S128x10752 32 [0] hi : IVec S128x10752 32) (ix2 s k) = BitVec.ofNat 32 s.val :=
  iota_single_apply .tc S128x10752 32 0 hi (ix2 s k)

/-- Two words compared for equality, the bit widened to a word and converted: 1 where they agree, else 0. -/
theorem onehot_word (a b : BitVec 32) :
    (FloatOps.sitofp (F := Ideal) .f32 ((IntOp.cmpi .eq a b).setWidth 32) : EReal) = if b = a then 1 else 0 := by
  show ((((BitVec.ofBool (a == b)).setWidth 32).toInt : ℝ) : EReal) = _
  by_cases h : b = a
  · subst h
    rw [if_pos rfl]
    simp
  · have hab : (a == b) = false := by
      simp only [beq_eq_false_iff_ne, ne_eq]
      exact fun e => h e.symm
    rw [hab, if_neg h]
    simp

/-- The right factor at (s, k): the one-hot weight of the label at position k against row s. -/
theorem right_at (x1 : Vec Ideal S1x112x96 .i32) (h1 : S1x112x96.ShapeCasts S112x96)
    (h2 : S112x96.ShapeCasts S1x10752) (h3 : S1x10752.Broadcasts S128x10752) (hi : S128x10752.Iotas .tc 32 [0])
    (hw : 1 < 32) (hb : FTy.bits .bf16 < FTy.bits .f32) (s : Fin 128) (k : Fin 10752) :
    (truncf .bf16 (sitofp .f32 (extui 32 (cmpi .eq (iota .tc S128x10752 32 [0] hi)
        (broadcastTo S128x10752 (shapeCast S1x10752 (shapeCast S112x96 x1 h1) h2) h3)) hw)) hb
        : FVec Ideal S128x10752 .bf16) (ix2 s k)
      = hit (x1 (ix3 (0 : Fin 1) (hOf k) (wOf k))) s := by
  rw [truncf_apply, sitofp_apply, extui_apply]
  show FloatOps.sitofp (F := Ideal) .f32 ((IntOp.cmpi .eq
      ((iota .tc S128x10752 32 [0] hi : IVec S128x10752 32) (ix2 s k))
      ((broadcastTo S128x10752 (shapeCast S1x10752 (shapeCast S112x96 x1 h1) h2) h3 : IVec S128x10752 32) (ix2 s k))).setWidth 32) = _
  rw [rows_at, labels_at, onehot_word]
  rfl

/-! ## The three payloads -/

/-- The first payload is the zero splat. -/
theorem pay1_apply (i : S64x128.Idx) : k0_pay1 (F := Ideal) i = 0 := by
  unfold k0_pay1
  rw [shapeCast_self]
  exact Ideal.ofBits_zero_f32

/-- The second payload at (c, s): the accumulator plus the slab's one-hot weighted sum. -/
theorem pay2_apply (x0 : Vec Ideal S1x64x1x112x96 .f32) (x1 : Vec Ideal S1x112x96 .i32) (acc : Vec Ideal S64x128 .f32) (c : Fin 64) (s : Fin 128) :
    k0_pay2 (F := Ideal) x0 x1 acc (ix2 c s)
      = acc (ix2 c s) + ∑ k : Fin 10752, x0 (ix5 (0 : Fin 1) c (0 : Fin 1) (hOf k) (wOf k)) * hit (x1 (ix3 (0 : Fin 1) (hOf k) (wOf k))) s := by
  unfold k0_pay2
  rw [shapeCast_self, addf_apply]
  refine congrArg (acc (ix2 c s) + ·) ?_
  refine (matmul_at _ _ c s).trans ?_
  exact Finset.sum_congr rfl fun k _ => by rw [left_at, right_at]

/-- The third payload adds a leading unit axis. -/
theorem pay3_apply (v : Vec Ideal S64x128 .f32) (c : Fin 64) (s : Fin 128) :
    k0_pay3 (F := Ideal) v (ix3 (0 : Fin 1) c s) = v (ix2 c s) := by
  unfold k0_pay3
  exact shapeCast_ab_1ab_apply v _ (0 : Fin 1) c s

end Cert.Roi.Body

end
-- ==== Proof.Blocks.lean ====
/-
  What the kernel's two input windows hold at a grid point, read at one index.

  Grid point t of the 2 x 96 grid has coordinates (t / 96, t % 96).  Window 0 carries the block
  feat[t / 96, :, t % 96, :, :] of the feature map; window 1 carries the slab t % 96 of the label volume
  padded with the label 0 from 91 x 109 x 91 up to 96 x 112 x 96, which is atlasP.
-/
import proofs.«428096_j80771154968757_2_alg».proof.Proof.Gen.KernelIdeal.Frame
import proofs.«428096_j80771154968757_2_alg».proof.Proof.Spec
import Idealize.ShloMosaic.Lib.Pipeline.Value
import Idealize.ShloMosaic.Lib.StableHlo.Run
import Idealize.ShloMosaic.Lib.KernelVsHost
import Idealize.ShloMosaic.Lib.ValueIdx

noncomputable section

namespace Cert.Roi.Blocks

open Idealize.ShloMosaic Idealize.ShloMosaic.TcCoe Idealize.ShloMosaic.ValueIdx Idealize.SL.Sem Cert.Roi Cert.KernelIdeal Cert.KernelIdeal.Gen

variable (m : (ℓ : Loc nD τ sig) → Buf (Elt Ideal) ℓ)

/-- Window 0's block index at point t: (t / 96, 0, t % 96, 0, 0). -/
theorem idx0 : ∀ t : Fin cfg0.N, win0_0.index t 0 = t.val / 96 ∧ win0_0.index t 1 = 0 ∧ win0_0.index t 2 = t.val % 96
    ∧ win0_0.index t 3 = 0 ∧ win0_0.index t 4 = 0 :=
  (by decide +kernel : ∀ t : Fin grid0.N, win0_0.index t 0 = t.val / 96 ∧ win0_0.index t 1 = 0
    ∧ win0_0.index t 2 = t.val % 96 ∧ win0_0.index t 3 = 0 ∧ win0_0.index t 4 = 0)

/-- Window 1's block index at point t: (t % 96, 0, 0). -/
theorem idx1 : ∀ t : Fin cfg0.N, win0_1.index t 0 = t.val % 96 ∧ win0_1.index t 1 = 0 ∧ win0_1.index t 2 = 0 :=
  (by decide +kernel : ∀ t : Fin grid0.N, win0_1.index t 0 = t.val % 96 ∧ win0_1.index t 1 = 0 ∧ win0_1.index t 2 = 0)

theorem lt192 (t : Fin cfg0.N) : t.val < 192 := by
  have h := t.isLt
  have e : cfg0.N = 192 := N_0
  omega

/-- Window 0 at point t, entry (0, cc, 0, h, w): the feature map at (t / 96, cc, t % 96, h, w). -/
theorem feat_block (c : Dev nD) (t : Fin cfg0.N) (cc : Fin 64) (h : Fin 112) (w : Fin 96) :
    (iblk m c 0 t : Vec Ideal S1x64x1x112x96 .f32) (ix5 (0 : Fin 1) cc (0 : Fin 1) h w)
      = (m ((c : Thread nD τ).loc main_arg0) : SF.Idx → EReal)
          (ix5 ⟨t.val / 96, by have := lt192 t; omega⟩ cc ⟨t.val % 96, by omega⟩ h w) := by
  obtain ⟨h0, h1, h2, h3, h4⟩ := idx0 t
  unfold iblk
  rw [View.read_apply]
  show V m c main_arg0 _ = m (c.tc.loc main_arg0) _
  rw [V_main_arg0]
  congr 1
  funext a
  apply Fin.ext
  match a with
  | ⟨0, _⟩ => show win0_0.index t 0 * 1 + 1 * 0 = t.val / 96; rw [h0]; omega
  | ⟨1, _⟩ => show win0_0.index t 1 * 64 + 1 * cc.val = cc.val; rw [h1]; omega
  | ⟨2, _⟩ => show win0_0.index t 2 * 1 + 1 * 0 = t.val % 96; rw [h2]; omega
  | ⟨3, _⟩ => show win0_0.index t 3 * 112 + 1 * h.val = h.val; rw [h3]; omega
  | ⟨4, _⟩ => show win0_0.index t 4 * 96 + 1 * w.val = w.val; rw [h4]; omega

/-- What the padded label volume's array holds when the region is entered: the host's pad of the label volume with the
    constant 0. -/
theorem pad_eq (c : Dev nD) :
    (V m c main_v0 : S96x112x96.Idx → BitVec 32)
      = pad S96x112x96 ![0, 0, 0] ![5, 3, 5] ![0, 0, 0] (m ((c : Thread nD τ).loc main_arg1)) (constantI S_ 32 0#32)
          pads_S91x109x91_S96x112x96_050_030_050 h_S_ := by
  dsimp only [Gen.V, Gen.V0]
  simp only [Gen.hostOps0, Gen.hostOps0_1, List.flatten_cons, List.flatten_nil, List.append_nil, List.cons_append,
    List.nil_append]
  after_results
  rfl

/-- Window 1 at point t, entry (0, h, w): the padded label volume's array at (t % 96, h, w). -/
theorem atlas_block_V (c : Dev nD) (t : Fin cfg0.N) (h : Fin 112) (w : Fin 96) :
    (iblk m c 1 t : Vec Ideal S1x112x96 .i32) (ix3 (0 : Fin 1) h w)
      = (V m c main_v0 : S96x112x96.Idx → BitVec 32) (ix3 (⟨t.val % 96, by omega⟩ : Fin 96) h w) := by
  obtain ⟨h0, h1, h2⟩ := idx1 t
  unfold iblk
  rw [View.read_apply]
  show V m c main_v0 _ = V m c main_v0 _
  congr 1
  funext a
  apply Fin.ext
  match a with
  | ⟨0, _⟩ => show win0_1.index t 0 * 1 + 1 * 0 = t.val % 96; rw [h0]; omega
  | ⟨1, _⟩ => show win0_1.index t 1 * 112 + 1 * h.val = h.val; rw [h1]; omega
  | ⟨2, _⟩ => show win0_1.index t 2 * 96 + 1 * w.val = w.val; rw [h2]; omega

/-- The host's pad of the label volume, read at (d, h, w): the label there inside the 91 x 109 x 91 box, the label 0
    outside it. -/
theorem pad_apply (x : SA.Idx → BitVec 32) (d : Fin 96) (h : Fin 112) (w : Fin 96) :
    pad S96x112x96 ![0, 0, 0] ![5, 3, 5] ![0, 0, 0] x (constantI S_ 32 0#32)
        pads_S91x109x91_S96x112x96_050_030_050 h_S_ (ix3 d h w) = atlasP x d h w := by
  unfold atlasP
  split
  · rename_i hh
    exact pad_apply_of_inside _ _ _ _ _ _ _ _
      (ix3 (⟨d.val, hh.1⟩ : Fin 91) (⟨h.val, hh.2.1⟩ : Fin 109) (⟨w.val, hh.2.2⟩ : Fin 91)) (by
        intro a
        match a with
        | ⟨0, _⟩ => show d.val = 0 + d.val * (0 + 1); omega
        | ⟨1, _⟩ => show h.val = 0 + h.val * (0 + 1); omega
        | ⟨2, _⟩ => show w.val = 0 + w.val * (0 + 1); omega)
  · rename_i hh
    by_cases hd : d.val < 91
    · by_cases hh' : h.val < 109
      · have hw : ¬ w.val < 91 := fun hw => hh ⟨hd, hh', hw⟩
        exact pad_apply_of_not_inside _ _ _ _ _ _ _ _ (2 : Fin 3) (by
          intro hin
          have e : (w.val - 0) / (0 + 1) < 91 := hin.2.2
          rw [Nat.sub_zero, Nat.zero_add, Nat.div_one] at e
          exact hw e)
      · exact pad_apply_of_not_inside _ _ _ _ _ _ _ _ (1 : Fin 3) (by
          intro hin
          have e : (h.val - 0) / (0 + 1) < 109 := hin.2.2
          rw [Nat.sub_zero, Nat.zero_add, Nat.div_one] at e
          exact hh' e)
    · exact pad_apply_of_not_inside _ _ _ _ _ _ _ _ (0 : Fin 3) (by
        intro hin
        have e : (d.val - 0) / (0 + 1) < 91 := hin.2.2
        rw [Nat.sub_zero, Nat.zero_add, Nat.div_one] at e
        exact hd e)

/-- Window 1 at point t, entry (0, h, w): the padded label volume at (t % 96, h, w). -/
theorem atlas_block (c : Dev nD) (t : Fin cfg0.N) (h : Fin 112) (w : Fin 96) :
    (iblk m c 1 t : Vec Ideal S1x112x96 .i32) (ix3 (0 : Fin 1) h w)
      = atlasP (m ((c : Thread nD τ).loc main_arg1) : SA.Idx → BitVec 32) ⟨t.val % 96, by omega⟩ h w := by
  rw [atlas_block_V, pad_eq, pad_apply]

end Cert.Roi.Blocks

end
-- ==== Proof.Partial.lean ====
/-
  The running sum over depth slabs.  `upto b j` is the sum of the slabs 0 … j of batch element b: it starts at slab 0, each
  further slab adds its own share, and after slab 95 it is the whole sum `ksum`.
-/
import proofs.«428096_j80771154968757_2_alg».proof.Proof.Spec

noncomputable section

namespace Cert.Roi

open Idealize.ShloMosaic Idealize.ShloMosaic.ValueIdx

variable (feat : SF.Idx → EReal) (atlas : SA.Idx → BitVec 32)

/-- The sum of the depth slabs 0 … j. -/
def upto (b : Fin 2) (j : ℕ) (c : Fin 64) (s : Fin 128) : EReal :=
  ∑ d ∈ Finset.univ.filter (fun d : Fin 96 => d.val ≤ j), slab feat atlas b d c s

theorem upto_zero (b : Fin 2) (c : Fin 64) (s : Fin 128) :
    upto feat atlas b 0 c s = slab feat atlas b ⟨0, by decide⟩ c s := by
  have e : Finset.univ.filter (fun d : Fin 96 => d.val ≤ 0) = {(⟨0, by decide⟩ : Fin 96)} := by
    ext d
    simp only [Finset.mem_filter, Finset.mem_univ, true_and, Finset.mem_singleton, Fin.ext_iff]
    omega
  unfold upto
  rw [e, Finset.sum_singleton]

theorem upto_succ (b : Fin 2) (j : ℕ) (hj : j + 1 < 96) (c : Fin 64) (s : Fin 128) :
    upto feat atlas b (j + 1) c s = upto feat atlas b j c s + slab feat atlas b ⟨j + 1, hj⟩ c s := by
  have e : Finset.univ.filter (fun d : Fin 96 => d.val ≤ j + 1)
      = insert (⟨j + 1, hj⟩ : Fin 96) (Finset.univ.filter (fun d : Fin 96 => d.val ≤ j)) := by
    ext d
    simp only [Finset.mem_filter, Finset.mem_univ, true_and, Finset.mem_insert, Fin.ext_iff]
    omega
  have hn : (⟨j + 1, hj⟩ : Fin 96) ∉ Finset.univ.filter (fun d : Fin 96 => d.val ≤ j) := by
    simp only [Finset.mem_filter, Finset.mem_univ, true_and]
    omega
  unfold upto
  rw [e, Finset.sum_insert hn, add_comm]

theorem upto_last (b : Fin 2) (c : Fin 64) (s : Fin 128) :
    upto feat atlas b 95 c s = ksum feat atlas b c s := by
  unfold upto ksum
  rw [Finset.filter_true_of_mem fun d _ => by have := d.isLt; omega]

end Cert.Roi

end
-- ==== Proof.Accum.lean ====
/-
  The accumulator across the grid, and the array the region leaves.

  Grid point n = b * 96 + d handles depth slab d of batch element b.  By induction on n, the accumulator after point n holds,
  at (c, s), the sum of the slabs 0 … d of batch element b: at d = 0 it is reset and receives slab 0; at d > 0 it receives slab d
  on top of what point n - 1 (same batch element, slab d - 1) left.  At d = 95 the accumulator, now the sum of all 96 slabs, is
  copied to the output block of batch element b, which is then written back: the region's [2, 64, 128] result holds `ksum`.
-/
import proofs.«428096_j80771154968757_2_alg».proof.Proof.Pieces
import proofs.«428096_j80771154968757_2_alg».proof.Proof.Payload
import proofs.«428096_j80771154968757_2_alg».proof.Proof.Blocks
import proofs.«428096_j80771154968757_2_alg».proof.Proof.Partial
import Idealize.ShloMosaic.Lib.Pipeline.Value

noncomputable section

namespace Cert.Roi.Accum

open Idealize.ShloMosaic Idealize.ShloMosaic.TcCoe Idealize.ShloMosaic.ValueIdx Idealize.SL.Sem
open Idealize.ShloMosaic.Pipeline (Dat)
open Cert.Roi Cert.KernelIdeal Cert.KernelIdeal.Gen

variable (m : (ℓ : Loc nD τ sig) → Buf (Elt Ideal) ℓ)

/-- The two argument arrays as the kernel is launched with them. -/
abbrev featA (c : Dev nD) : SF.Idx → EReal := m ((c : Thread nD τ).loc main_arg0)
abbrev atlasA (c : Dev nD) : SA.Idx → BitVec 32 := m ((c : Thread nD τ).loc main_arg1)

/-- Grid point n is batch element n / 96, depth slab n % 96. -/
def bOf (n : ℕ) : Fin 2 := ⟨n / 96 % 2, Nat.mod_lt _ (by decide)⟩
def dOf (n : ℕ) : Fin 96 := ⟨n % 96, Nat.mod_lt _ (by decide)⟩

theorem lt192 (t : Fin cfg0.N) : t.val < 192 := lt_of_lt_of_eq t.isLt (show cfg0.N = 192 from N_0)

/-- One step of the body at point t: the accumulator plus the share of the point's slab. -/
theorem step (c : Dev nD) (t : Fin cfg0.N) (acc : Vec Ideal S64x128 .f32) (cc : Fin 64) (s : Fin 128) :
    k0_pay2 (F := Ideal) (iblk m c 0 t) (iblk m c 1 t) acc (ix2 cc s)
      = acc (ix2 cc s) + slab (featA m c) (atlasA m c) (bOf t.val) (dOf t.val) cc s := by
  have hN := lt192 t
  have eb : ∀ h, (⟨t.val / 96, h⟩ : Fin 2) = bOf t.val := fun h => Fin.ext (by show t.val / 96 = t.val / 96 % 2; omega)
  have ed : ∀ h, (⟨t.val % 96, h⟩ : Fin 96) = dOf t.val := fun h => rfl
  refine (Body.pay2_apply (iblk m c 0 t) (iblk m c 1 t) acc cc s).trans ?_
  refine congrArg (acc (ix2 cc s) + ·) ?_
  unfold slab
  refine Finset.sum_congr rfl fun k _ => ?_
  rw [Blocks.feat_block m c t cc (hOf k) (wOf k), Blocks.atlas_block m c t (hOf k) (wOf k), eb, ed]

/-- At the first slab of a batch element the accumulator ends at slab 0's share. -/
theorem inv_first (c : Dev nD) (t : Fin cfg0.N) (h0 : t.val % 96 = 0) (cc : Fin 64) (s : Fin 128) :
    (outsAt0 m c t.val t.isLt).2 (ix2 cc s) = upto (featA m c) (atlasA m c) (bOf t.val) (t.val % 96) cc s := by
  have h1 : ¬t.val % 96 = 95 := by omega
  rw [outsAt0_A m c t h0 h1]
  dsimp only
  refine (congrFun (Pieces.acc_first (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) (ix2 cc s)).trans ?_
  refine (step m c t _ cc s).trans ?_
  rw [Body.pay1_apply, zero_add, h0, upto_zero]
  exact congrArg (fun d => slab (featA m c) (atlasA m c) (bOf t.val) d cc s) (Fin.ext h0)

/-- At a later slab the accumulator ends at the sum up to the slab before plus this slab's share. -/
theorem inv_later (c : Dev nD) (t : Fin cfg0.N) (h0 : ¬t.val % 96 = 0)
    (ih : ∀ (hk : t.val - 1 < cfg0.N) (cc : Fin 64) (s : Fin 128),
      (outsAt0 m c (t.val - 1) hk).2 (ix2 cc s) = upto (featA m c) (atlasA m c) (bOf (t.val - 1)) ((t.val - 1) % 96) cc s)
    (cc : Fin 64) (s : Fin 128) :
    (outsAt0 m c t.val t.isLt).2 (ix2 cc s) = upto (featA m c) (atlasA m c) (bOf t.val) (t.val % 96) cc s := by
  have hN := lt192 t
  have hj : (t.val - 1) % 96 + 1 < 96 := by omega
  have ej : t.val % 96 = (t.val - 1) % 96 + 1 := by omega
  have ebb : bOf (t.val - 1) = bOf t.val := Fin.ext (by show (t.val - 1) / 96 % 2 = t.val / 96 % 2; omega)
  have edd : dOf t.val = ⟨(t.val - 1) % 96 + 1, hj⟩ := Fin.ext ej
  have close : (outsAt0 m c (t.val - 1) (Nat.lt_of_le_of_lt (Nat.sub_le _ _) t.isLt)).2 (ix2 cc s) + slab (featA m c) (atlasA m c) (bOf t.val) (dOf t.val) cc s
      = upto (featA m c) (atlasA m c) (bOf t.val) (t.val % 96) cc s := by
    rw [ih _ cc s, ebb, ej, upto_succ _ _ _ _ hj, edd]
  by_cases h1 : t.val % 96 = 95
  · rw [outsAt0_C m c t h0 h1]
    dsimp only
    refine (congrFun (Pieces.acc_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) (ix2 cc s)).trans ?_
    exact (step m c t _ cc s).trans close
  · rw [outsAt0_B m c t h0 h1]
    dsimp only
    refine (congrFun (Pieces.acc_middle (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) (ix2 cc s)).trans ?_
    exact (step m c t _ cc s).trans close

/-- THE ACCUMULATOR after point n: the sum of the slabs 0 … n % 96 of batch element n / 96. -/
theorem acc_inv (c : Dev nD) : ∀ (n : ℕ) (hn : n < cfg0.N) (cc : Fin 64) (s : Fin 128),
    (outsAt0 m c n hn).2 (ix2 cc s) = upto (featA m c) (atlasA m c) (bOf n) (n % 96) cc s
  | 0, hn, cc, s => inv_first m c ⟨0, hn⟩ rfl cc s
  | n + 1, hn, cc, s => by
    by_cases h0 : (n + 1) % 96 = 0
    · exact inv_first m c ⟨n + 1, hn⟩ h0 cc s
    · exact inv_later m c ⟨n + 1, hn⟩ h0 (fun hk cc' s' => acc_inv c n hk cc' s') cc s

/-- At the last slab the output block receives the accumulator. -/
theorem out_at_last (c : Dev nD) (t : Fin cfg0.N) (h1 : t.val % 96 = 95) :
    (outsAt0 m c t.val t.isLt).1 = k0_pay3 (F := Ideal) (outsAt0 m c t.val t.isLt).2 := by
  have h0 : ¬t.val % 96 = 0 := by omega
  rw [outsAt0_C m c t h0 h1]
  dsimp only
  rw [Pieces.out_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2,
    Pieces.acc_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2]

/-- The region's result: at (b, c, s) the sum of all 96 slabs of batch element b. -/
def result (c : Dev nD) : S2x64x128.Idx → EReal := fun i =>
  ksum (featA m c) (atlasA m c) ⟨(i 0).val, (i 0).isLt⟩ ⟨(i 1).val, (i 1).isLt⟩ ⟨(i 2).val, (i 2).isLt⟩

/-- Output window 2's block index at point t: batch element t / 96, the whole [64, 128] plane. -/
theorem idx2 : ∀ t : Fin cfg0.N, win0_2.index t 0 = t.val / 96 ∧ win0_2.index t 1 = 0 ∧ win0_2.index t 2 = 0 :=
  (by decide +kernel : ∀ t : Fin grid0.N, win0_2.index t 0 = t.val / 96 ∧ win0_2.index t 1 = 0 ∧ win0_2.index t 2 = 0)

/-- What a write-back point writes is its block of the result. -/
theorem flushed_eq (c : Dev nD) (t : Fin cfg0.N) (hf : (cfg0.win 2).flush t = true) :
    (dats m 0 c).flushed 2 t = ((cfg0.win 2).blk t).view.read (Elt Ideal) (result m c) := by
  have hN := lt192 t
  have h1 : t.val % 96 = 95 := (flush0_2 t).mp hf
  obtain ⟨e0, e1, e2⟩ := idx2 t
  show (cfg0.win 2).cut (grid0.coords t) ((dats m 0 c).after 2 t) = _
  rw [after0_2, out_at_last m c t h1]
  funext y
  rw [View.read_apply]
  obtain ⟨cc, s, rfl⟩ : ∃ (cc : Fin 64) (s : Fin 128), y = ix3 (0 : Fin 1) cc s :=
    ⟨⟨(y 1).val, (y 1).isLt⟩, ⟨(y 2).val, (y 2).isLt⟩, by
      funext a
      match a with
      | ⟨0, _⟩ => exact Fin.ext (by show (y 0).val = 0; have hy0 : (y 0).val < 1 := (y 0).isLt; omega)
      | ⟨1, _⟩ => rfl
      | ⟨2, _⟩ => rfl⟩
  refine (Body.pay3_apply (outsAt0 m c t.val t.isLt).2 cc s).trans ?_
  rw [acc_inv m c t.val t.isLt cc s, h1, upto_last]
  show ksum (featA m c) (atlasA m c) (bOf t.val) cc s = result m c _
  unfold result
  congr 1
  · exact Fin.ext (by show t.val / 96 % 2 = win0_2.index t 0 * 1 + 1 * 0; rw [e0]; omega)
  · exact Fin.ext (by show cc.val = win0_2.index t 1 * 64 + 1 * cc.val; rw [e1]; omega)
  · exact Fin.ext (by show s.val = win0_2.index t 2 * 128 + 1 * s.val; rw [e2]; omega)

/-- Every entry of the result lies in the block written back at the last slab of its batch element. -/
theorem covered (i : S2x64x128.Idx) :
    ∃ t : Fin cfg0.N, (cfg0.win 2).flush t = true ∧ i ∈ ((cfg0.win 2).blk t).view.set := by
  have hi0 : (i 0).val < 2 := (i 0).isLt
  have hi1 : (i 1).val < 64 := (i 1).isLt
  have hi2 : (i 2).val < 128 := (i 2).isLt
  have hlt : (i 0).val * 96 + 95 < cfg0.N := by rw [show cfg0.N = 192 from N_0]; omega
  refine ⟨⟨(i 0).val * 96 + 95, hlt⟩, (flush0_2 _).mpr (by show ((i 0).val * 96 + 95) % 96 = 95; omega), ?_⟩
  obtain ⟨e0, e1, e2⟩ := idx2 ⟨(i 0).val * 96 + 95, hlt⟩
  have e0' : win0_2.index ⟨(i 0).val * 96 + 95, hlt⟩ 0 = (i 0).val := by
    rw [e0]; show ((i 0).val * 96 + 95) / 96 = (i 0).val; omega
  show i ∈ ((View.whole main_v1).slice (win0_2.rect ⟨(i 0).val * 96 + 95, hlt⟩)).set
  rw [View.set_slice_whole, Rect.mem_set_unit]
  intro a
  match a with
  | ⟨0, _⟩ =>
    show win0_2.index ⟨(i 0).val * 96 + 95, hlt⟩ 0 * 1 ≤ (i 0).val ∧ (i 0).val < win0_2.index ⟨(i 0).val * 96 + 95, hlt⟩ 0 * 1 + 1
    rw [e0']; omega
  | ⟨1, _⟩ =>
    show win0_2.index ⟨(i 0).val * 96 + 95, hlt⟩ 1 * 64 ≤ (i 1).val ∧ (i 1).val < win0_2.index ⟨(i 0).val * 96 + 95, hlt⟩ 1 * 64 + 64
    rw [e1]; omega
  | ⟨2, _⟩ =>
    show win0_2.index ⟨(i 0).val * 96 + 95, hlt⟩ 2 * 128 ≤ (i 2).val ∧ (i 2).val < win0_2.index ⟨(i 0).val * 96 + 95, hlt⟩ 2 * 128 + 128
    rw [e2]; omega

/-- THE REGION'S RESULT ARRAY after the run. -/
theorem final (c : Dev nD) : (dats m 0 c).arrAt 2 cfg0.N = result m c :=
  (dats m 0 c).arrAt_eq_of_cover 2 (result m c) (flushed_eq m c) (covered)

end Cert.Roi.Accum

end
-- ==== Proof.Tail.lean ====
/-
  The lines after the pallas region, as one function of what the region leaves.

  After the region @main divides: the numerator is the kernel's [2, 64, 128] result with its segment rows 1 … 94 kept and its
  last two axes swapped, so entry (b, r, c) of the numerator is entry (b, c, 1 + r) of the result; the divisor is the number of
  voxels per segment (a scatter of ones by the flattened label volume), rows 1 … 94, kept away from zero by a maximum with a
  small constant, and broadcast along b and c.  The divisor is a function of the label volume alone, and it is the very chain of
  operations the reference applies: the two are one term.
-/
import proofs.«428096_j80771154968757_2_alg».proof.Proof.Gen.KernelIdeal.Frame
import proofs.«428096_j80771154968757_2_alg».proof.Proof.Gen.ReferenceIdeal.Read
import Idealize.ShloMosaic.Lib.Pipeline.Value
import Idealize.ShloMosaic.Lib.StableHlo.Run
import Idealize.ShloMosaic.Lib.ValueIdx
import Idealize.ShloMosaic.Lib.Tactic

noncomputable section

namespace Cert.Roi.Tail

open Idealize.ShloMosaic Idealize.ShloMosaic.TcCoe Idealize.ShloMosaic.ValueIdx Idealize.SL.Sem Cert.KernelIdeal Cert.KernelIdeal.Gen

variable {F : FTy → Type} [FloatOps F]
variable (m : (ℓ : Loc nD τ sig) → Buf (Elt F) ℓ)

/-- The divisor: voxels per segment, rows 1 … 94, at least the small constant, along b and c. -/
def denom (x1 : (⟨S91x109x91, .i32⟩ : BufTy).Contents (Elt F)) : (⟨S2x94x64, .f32⟩ : BufTy).Contents (Elt F) :=
  broadcastInDim S2x94x64 ![0, 1, 2] bcast_S1x94x1_S2x94x64_0_1_2
    (broadcastInDim S1x94x1 ![1] bcast_S94_S1x94x1_1
      (maximumf
        (extractStridedSlice S94 ![1]
          (Host.scatterAdd scatter_S95_S902629x1_S902629_n_0_0_1
            (broadcastInDim S95 ![] bcast_S_S95 (constant S_ .f32 0x00000000#32))
            (broadcastInDim S902629x1 ![0] bcast_S902629_S902629x1_0 (shapeCast _ x1 shapeCasts_S91x109x91_S902629))
            (broadcastInDim S902629 ![] bcast_S_S902629 (constant S_ .f32 0x3F800000#32)))
          slices_S95_S94_1)
        (broadcastInDim S94 ![] bcast_S_S94 (constant S_ .f32 0x358637BD#32))))

/-- The numerator: segment rows 1 … 94 of the region's result, the last two axes swapped. -/
def numer (a : (⟨S2x64x128, .f32⟩ : BufTy).Contents (Elt F)) : (⟨S2x94x64, .f32⟩ : BufTy).Contents (Elt F) :=
  transpose S2x94x64 [0, 2, 1] (extractStridedSlice S2x64x94 ![0, 0, 1] a slices_S2x64x128_S2x64x94_0_0_1)
    transposes_S2x64x94_S2x94x64_0_2_1

/-- Entry (b, r, c) of the numerator is entry (b, c, 1 + r) of the region's result. -/
theorem numer_apply (a : (⟨S2x64x128, .f32⟩ : BufTy).Contents (Elt F)) (b : Fin 2) (r : Fin 94) (c : Fin 64) :
    numer (F := F) a (ix3 b r c) = a (ix3 b c ⟨1 + r.val, by have := r.isLt; omega⟩) := by
  unfold numer
  rw [transpose_apply [0, 2, 1] _ transposes_S2x64x94_S2x94x64_0_2_1 (ix3 b r c) (ix3 b c r) (fun d => match d with
    | ⟨0, _⟩ => rfl
    | ⟨1, _⟩ => rfl
    | ⟨2, _⟩ => rfl)]
  exact extractStridedSlice_apply ![0, 0, 1] a slices_S2x64x128_S2x64x94_0_0_1 (ix3 b c r) (ix3 b c ⟨1 + r.val, by have := r.isLt; omega⟩) (fun d => match d with
    | ⟨0, _⟩ => by show b.val = 0 + b.val; omega
    | ⟨1, _⟩ => by show c.val = 0 + c.val; omega
    | ⟨2, _⟩ => by show 1 + r.val = 1 + r.val; rfl)

/-- The divisor is the reference's divisor: the same operations on the same label volume. -/
theorem denom_eq_ref (x1 : (⟨S91x109x91, .i32⟩ : BufTy).Contents (Elt F)) :
    denom (F := F) x1 = Cert.ReferenceIdeal.Read.val_main_v19 (F := F) x1 := rfl

/-- What @main's last value holds after the run: the numerator of the region's result over the divisor of the label volume. -/
theorem tail_value (c : Dev nD) :
    Pipeline.afterTail₀ cfgs (dats m) 0 (V0 m) [hostOps1] c main_v14
      = Host.divf (numer ((dats m 0 c).arrAt 2 cfg0.N)) (denom (m ((c : Thread nD τ).loc main_arg1))) := by
  have h1 : Pipeline.withArrays (cfgs 0).spec c (V0 m c) (fun w => (dats m 0 c).arrAt w (cfgs 0).N) (Proc.devRef .tc main_v1)
      = (dats m 0 c).arrAt 2 cfg0.N :=
    Pipeline.withArrays_arr spec0 launch0.win.arr_inj c (V0 m c) (fun w => (dats m 0 c).arrAt w (cfgs 0).N) 2
  have h2 : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans
      (V_main_arg1 m c)
  unfold Pipeline.afterTail₀
  show StableHlo.after hostOps1 _ (Proc.devRef .tc main_v14) = _
  after_results
  rw [h1, h2]
  rfl

end Cert.Roi.Tail

end
-- ==== Proof.RefNum.lean ====
/-
  The reference's numerator, read at one index.

  The reference scatters the 902629 rows of 128 numbers (one row per voxel of the unpadded label volume, one number per
  (batch element, channel) pair) into a zero table of 95 rows, each row going to the row its voxel's label lands on; it
  then drops row 0, splits the 128 columns into 2 x 64 and puts the batch axis first. So the entry at (b, r, c) of the
  result is the table's entry at row 1 + r, column b * 64 + c: the sum, over the voxels whose label lands on row 1 + r, of
  the feature map's value at (b, c) and that voxel.
-/
import proofs.«428096_j80771154968757_2_alg».proof.Proof.Gen.ReferenceIdeal.Read
import proofs.«428096_j80771154968757_2_alg».proof.Proof.Spec
import Idealize.ShloMosaic.PureOps.Ideal.Laws
import Idealize.ShloMosaic.Lib.ValueIdx

noncomputable section

namespace Cert.Roi.RefSide

open Idealize.ShloMosaic Idealize.ShloMosaic.ValueIdx Cert.Decode Cert.Roi Cert.ReferenceIdeal Cert.ReferenceIdeal.Gen
  Cert.ReferenceIdeal.Read

/-- The table the rows are scattered into is zero everywhere. -/
theorem table_zero (i : S95x128.Idx) : val_main_v5 (F := Ideal) i = 0 := by
  rw [val_main_v5_apply, val_main_cst_apply]
  exact Ideal.ofBits_zero_f32

/-- Row `e` of the index column is the label of voxel `e` = (e / 9919, e / 91 % 109, e % 91). -/
theorem index_column_apply (x1 : SA.Idx → BitVec 32) (e : Fin 902629) :
    val_main_v6 (F := Ideal) x1 (ix2 e 0) = x1 (ix3 (dOfE e) (hOfE e) (wOfE e)) := by
  rw [val_main_v6_apply, val_main_v1_apply]
  congr 1
  funext a
  match a with
  | ⟨0, _⟩ => rfl
  | ⟨1, _⟩ => rfl
  | ⟨2, _⟩ => rfl

/-- Column b * 64 + c of update row `e` is entry (b, c, e) of the feature map flattened over its three spatial axes:
    (e * 128 + (b * 64 + c)) / 64 % 2 = b, its remainder by 64 is c, and its quotient by 128 is e. -/
theorem update_index (e : Fin 902629) (b : Fin 2) (c : Fin 64) (hj : b.val * 64 + c.val < 128) :
    idx_main_v3 (idx_main_v4 (ix2 e (⟨b.val * 64 + c.val, hj⟩ : Fin 128))) = ix3 b c e := by
  have hb := b.isLt
  have hc := c.isLt
  have he := e.isLt
  funext a
  match a with
  | ⟨0, _⟩ => exact Fin.ext (by show (e.val * 128 + (b.val * 64 + c.val)) / 64 % 2 = b.val; omega)
  | ⟨1, _⟩ => exact Fin.ext (by show (e.val * 128 + (b.val * 64 + c.val)) % 64 = c.val; omega)
  | ⟨2, _⟩ => exact Fin.ext (by show (e.val * 128 + (b.val * 64 + c.val)) / 128 = e.val; omega)

/-- Entry (b, c, e) of the flattened feature map is the feature map at (b, c) and voxel `e`: with
    N = (b * 64 + c) * 902629 + e and 902629 = 91 * 9919 = 91 * 109 * 91, N / 57768256 = b, N / 902629 % 64 = c,
    N / 9919 % 91 = e / 9919, N / 91 % 109 = e / 91 % 109 and N % 91 = e % 91. -/
theorem voxel_index (e : Fin 902629) (b : Fin 2) (c : Fin 64) :
    idx_main_v0 (idx_main_v2 (ix3 b c e)) = ix5 b c (up96 (dOfE e)) (up112 (hOfE e)) (up96 (wOfE e)) := by
  have hb := b.isLt
  have hc := c.isLt
  have he := e.isLt
  funext a
  match a with
  | ⟨0, _⟩ => exact Fin.ext (by show ((b.val * 64 + c.val) * 902629 + e.val) / 57768256 = b.val; omega)
  | ⟨1, _⟩ => exact Fin.ext (by show ((b.val * 64 + c.val) * 902629 + e.val) / 902629 % 64 = c.val; omega)
  | ⟨2, _⟩ => exact Fin.ext (by show ((b.val * 64 + c.val) * 902629 + e.val) / 9919 % 91 = e.val / 9919; omega)
  | ⟨3, _⟩ => exact Fin.ext (by show ((b.val * 64 + c.val) * 902629 + e.val) / 91 % 109 = e.val / 91 % 109; omega)
  | ⟨4, _⟩ => exact Fin.ext (by show ((b.val * 64 + c.val) * 902629 + e.val) % 91 = e.val % 91; omega)

/-- Update row `e` at column b * 64 + c is the feature map at (b, c) and voxel `e`. -/
theorem update_apply (x0 : SF.Idx → EReal) (e : Fin 902629) (b : Fin 2) (c : Fin 64) (hj : b.val * 64 + c.val < 128) :
    val_main_v4 (F := Ideal) x0 (ix2 e (⟨b.val * 64 + c.val, hj⟩ : Fin 128))
      = x0 (ix5 b c (up96 (dOfE e)) (up112 (hOfE e)) (up96 (wOfE e))) := by
  rw [val_main_v4_apply, val_main_v3_apply, update_index, val_main_v2_apply, val_main_v0_apply, voxel_index]

/-- Entry (b, r, c) of the result is entry (1 + r, b * 64 + c) of the scattered table:
    ((r * 2 + b) * 64 + c) / 128 = r and its remainder by 128 is b * 64 + c. -/
theorem table_index (b : Fin 2) (r : Fin 94) (c : Fin 64) (hk : 1 + r.val < 95) (hj : b.val * 64 + c.val < 128) :
    idx_main_v12 (idx_main_v13 (idx_main_v17 (ix3 b r c))) = ix2 (⟨1 + r.val, hk⟩ : Fin 95) (⟨b.val * 64 + c.val, hj⟩ : Fin 128) := by
  have hb := b.isLt
  have hr := r.isLt
  have hc := c.isLt
  funext a
  match a with
  | ⟨0, _⟩ => exact Fin.ext (by show 1 + ((r.val * 2 + b.val) * 64 + c.val) / 128 = 1 + r.val; omega)
  | ⟨1, _⟩ => exact Fin.ext (by show ((r.val * 2 + b.val) * 64 + c.val) % 128 = b.val * 64 + c.val; omega)

/-- The reference's numerator at (b, r, c): the sum of the feature map at (b, c) over the voxels whose label lands on
    row 1 + r. -/
theorem ref_num_apply (x0 : SF.Idx → EReal) (x1 : SA.Idx → BitVec 32) (b : Fin 2) (r : Fin 94) (c : Fin 64) :
    val_main_v17 (F := Ideal) x0 x1 (ix3 b r c) = rsum x0 x1 b c ⟨1 + r.val, by have := r.isLt; omega⟩ := by
  have hb := b.isLt
  have hr := r.isLt
  have hc := c.isLt
  have hj : b.val * 64 + c.val < 128 := by omega
  have hk : 1 + r.val < 95 := by omega
  rw [val_main_v17_apply, val_main_v13_apply, val_main_v12_apply, table_index b r c hk hj]
  unfold val_main_v7
  rw [scatterAdd_rows scatter_S95x128_S902629x1_S902629x128_1_0_0_1 rfl rfl rfl rfl, table_zero, zero_add]
  unfold rsum
  refine Finset.sum_congr (Finset.filter_congr fun e _ => ?_) fun e _ => update_apply x0 e b c hj
  rw [index_column_apply]

end Cert.Roi.RefSide

end
-- ==== Proof.SumLaw.lean ====
/-
  The pooling identity over abstract arrays: the one-hot weighted sum over the padded volume, taken slab by slab, is the
  sum over the voxels of the unpadded volume whose label lands on the row.

  A term of the weighted sum is feat * hit.  Outside the 91 x 109 x 91 box the padded label is the word 0, which is not
  the word of a row number from 1 to 127, so hit is 0 there and the term is x * 0 = 0 (true of every extended real).
  Inside the box the padded label is the volume's own label, and it is the word of row s exactly when it lands on row s
  of 95; then the term is x * 1 = x, otherwise x * 0 = 0.  The box is the flattened volume through
  e = (d * 109 + h) * 91 + w: the map e ↦ (d, h * 96 + w) into (depth, position of the slab) is one to one and its
  range is the box.  So the sum over all (depth, position) of the terms is the sum over the voxels of the terms at
  their images, which is the sum of feat over the voxels whose label lands on s.
-/
import Mathlib.Algebra.BigOperators.Group.Finset.Basic
import Mathlib.Data.Fintype.BigOperators
import Mathlib.Data.EReal.Basic
import proofs.«428096_j80771154968757_2_alg».proof.Proof.Spec

noncomputable section

namespace Cert.Roi

open Idealize.ShloMosaic Idealize.ShloMosaic.ValueIdx Cert.Decode

/-- The padding label 0 is not the word of a row number from 1 to 127: its weight is 0. -/
theorem hit_zero (s : Fin 128) (hs1 : 1 ≤ s.val) : hit 0#32 s = 0 := by
  unfold hit
  rw [if_neg]
  intro h
  have hlt := s.isLt
  have h2 : (BitVec.ofNat 32 s.val).toNat = 0 := by rw [← h]; rfl
  rw [BitVec.toNat_ofNat, Nat.mod_eq_of_lt (by omega)] at h2
  omega

/-- Outside the box the padded label is the padding label. -/
theorem atlasP_out (atlas : SA.Idx → BitVec 32) (d : Fin 96) (h : Fin 112) (w : Fin 96)
    (hout : ¬ (d.val < 91 ∧ h.val < 109 ∧ w.val < 91)) : atlasP atlas d h w = 0#32 := by
  unfold atlasP
  rw [dif_neg hout]

/-- At a coordinate of the box the padded label is the volume's own label. -/
theorem atlasP_up (atlas : SA.Idx → BitVec 32) (d : Fin 91) (h : Fin 109) (w : Fin 91) :
    atlasP atlas (up96 d) (up112 h) (up96 w) = atlas (ix3 d h w) := by
  unfold atlasP
  rw [dif_pos (⟨d.isLt, h.isLt, w.isLt⟩ : (up96 d).val < 91 ∧ (up112 h).val < 109 ∧ (up96 w).val < 91)]
  rfl

/-- The weight of a label against a row below 95 is the landing test on 95 rows. -/
theorem hit_eq_landing (w : BitVec 32) (s : Fin 128) (hs : s.val < 95) :
    hit w s = if landing 95 w = some ⟨s.val, hs⟩ then 1 else 0 := by
  unfold hit
  have h := landing_eq_some_iff (n := 95) (by omega) w ⟨s.val, hs⟩
  by_cases hw : w = BitVec.ofNat 32 s.val
  · rw [if_pos hw, if_pos (h.2 hw)]
  · rw [if_neg hw, if_neg (fun hl => hw (h.1 hl))]

/-- One term of the weighted sum, at (depth, position of the slab). -/
def term (feat : SF.Idx → EReal) (atlas : SA.Idx → BitVec 32) (b : Fin 2) (c : Fin 64) (s : Fin 128)
    (p : Fin 96 × Fin 10752) : EReal :=
  feat (ix5 b c p.1 (hOf p.2) (wOf p.2)) * hit (atlasP atlas p.1 (hOf p.2) (wOf p.2)) s

/-- The weighted sum, slab by slab, is the sum of the terms over all (depth, position). -/
theorem ksum_eq_sum_term (feat : SF.Idx → EReal) (atlas : SA.Idx → BitVec 32) (b : Fin 2) (c : Fin 64) (s : Fin 128) :
    ksum feat atlas b c s = ∑ p : Fin 96 × Fin 10752, term feat atlas b c s p := by
  unfold ksum slab
  exact (Fintype.sum_prod_type (term feat atlas b c s)).symm

/-- Voxel e = (d * 109 + h) * 91 + w of the volume as (depth d, position h * 96 + w of the slab). -/
def emb (e : Fin 902629) : Fin 96 × Fin 10752 :=
  (up96 (dOfE e), ⟨(hOfE e).val * 96 + (wOfE e).val, by
    have h1 := (hOfE e).isLt
    have h2 := (wOfE e).isLt
    omega⟩)

/-- Position h * 96 + w with w < 96 is row h. -/
theorem hOf_emb (e : Fin 902629) : hOf (emb e).2 = up112 (hOfE e) := by
  apply Fin.ext
  show ((hOfE e).val * 96 + (wOfE e).val) / 96 = (hOfE e).val
  have h2 := (wOfE e).isLt
  omega

/-- Position h * 96 + w with w < 96 is column w. -/
theorem wOf_emb (e : Fin 902629) : wOf (emb e).2 = up96 (wOfE e) := by
  apply Fin.ext
  show ((hOfE e).val * 96 + (wOfE e).val) % 96 = (wOfE e).val
  have h2 := (wOfE e).isLt
  omega

/-- Two voxels with the same depth, row and column are the same voxel. -/
theorem emb_injective : Function.Injective emb := by
  intro e e' h
  have h1 : (dOfE e).val = (dOfE e').val := congrArg (fun p => p.1.val) h
  have h2 : (hOfE e).val * 96 + (wOfE e).val = (hOfE e').val * 96 + (wOfE e').val := congrArg (fun p => p.2.val) h
  have hlt := e.isLt
  have hlt' := e'.isLt
  apply Fin.ext
  simp only [dOfE, hOfE, wOfE] at h1 h2
  omega

/-- Every (depth, position) inside the box is the image of a voxel. -/
theorem mem_range_emb (p : Fin 96 × Fin 10752)
    (hin : p.1.val < 91 ∧ (hOf p.2).val < 109 ∧ (wOf p.2).val < 91) : p ∈ Set.range emb := by
  obtain ⟨⟨d, hd⟩, ⟨k, hk⟩⟩ := p
  have hd' : d < 91 := hin.1
  have hh' : k / 96 < 109 := hin.2.1
  have hw' : k % 96 < 91 := hin.2.2
  refine ⟨⟨(d * 109 + k / 96) * 91 + k % 96, by omega⟩, ?_⟩
  apply Prod.ext
  · apply Fin.ext
    show ((d * 109 + k / 96) * 91 + k % 96) / 9919 = d
    omega
  · apply Fin.ext
    show ((d * 109 + k / 96) * 91 + k % 96) / 91 % 109 * 96 + ((d * 109 + k / 96) * 91 + k % 96) % 91 = k
    omega

/-- Off the image of the volume the term is 0. -/
theorem term_out (feat : SF.Idx → EReal) (atlas : SA.Idx → BitVec 32) (b : Fin 2) (c : Fin 64) (s : Fin 128)
    (hs1 : 1 ≤ s.val) (p : Fin 96 × Fin 10752) (hp : p ∉ Set.range emb) : term feat atlas b c s p = 0 := by
  unfold term
  rw [atlasP_out atlas p.1 (hOf p.2) (wOf p.2) (fun hin => hp (mem_range_emb p hin)), hit_zero s hs1, mul_zero]

/-- At the image of a voxel the term is feat when the voxel's label lands on the row, else 0. -/
theorem term_emb (feat : SF.Idx → EReal) (atlas : SA.Idx → BitVec 32) (b : Fin 2) (c : Fin 64) (s : Fin 128)
    (hs : s.val < 95) (e : Fin 902629) :
    term feat atlas b c s (emb e)
      = if landing 95 (atlas (ix3 (dOfE e) (hOfE e) (wOfE e))) = some ⟨s.val, hs⟩
          then feat (ix5 b c (up96 (dOfE e)) (up112 (hOfE e)) (up96 (wOfE e))) else 0 := by
  unfold term
  rw [hOf_emb, wOf_emb]
  show feat (ix5 b c (up96 (dOfE e)) (up112 (hOfE e)) (up96 (wOfE e)))
      * hit (atlasP atlas (up96 (dOfE e)) (up112 (hOfE e)) (up96 (wOfE e))) s = _
  rw [atlasP_up, hit_eq_landing _ s hs]
  by_cases hl : landing 95 (atlas (ix3 (dOfE e) (hOfE e) (wOfE e))) = some ⟨s.val, hs⟩
  · rw [if_pos hl, if_pos hl, mul_one]
  · rw [if_neg hl, if_neg hl, mul_zero]

/-- The weighted sum over the padded volume is the sum over the voxels whose label lands on the row. -/
theorem ksum_eq_rsum (feat : SF.Idx → EReal) (atlas : SA.Idx → BitVec 32) (b : Fin 2) (c : Fin 64) (s : Fin 128)
    (hs1 : 1 ≤ s.val) (hs : s.val < 95) :
    ksum feat atlas b c s = rsum feat atlas b c ⟨s.val, hs⟩ := by
  rw [ksum_eq_sum_term]
  unfold rsum
  rw [Finset.sum_filter]
  symm
  exact Fintype.sum_of_injective emb emb_injective _ _
    (fun p hp => term_out feat atlas b c s hs1 p hp)
    (fun e => (term_emb feat atlas b c s hs e).symm)

end Cert.Roi

end
-- ==== Proof.Bridge.lean ====
/-
  The two programs' results are one function of the arguments.

  Entry (b, r, c) of the kernel's numerator is entry (b, c, 1 + r) of the region's result, the one-hot weighted sum over the padded
  label volume for segment row 1 + r; entry (b, r, c) of the reference's numerator is the sum over the voxels whose label lands on
  row 1 + r.  For 1 ≤ 1 + r < 95 the two sums are equal.  The divisors are one term.  So the kernel's run ends with its result at
  the reference's quotient.
-/
import proofs.«428096_j80771154968757_2_alg».proof.Proof.Accum
import proofs.«428096_j80771154968757_2_alg».proof.Proof.Tail
import proofs.«428096_j80771154968757_2_alg».proof.Proof.RefNum
import proofs.«428096_j80771154968757_2_alg».proof.Proof.SumLaw

noncomputable section

namespace Cert.Roi.Bridge

open Idealize.ShloMosaic Idealize.ShloMosaic.TcCoe Idealize.ShloMosaic.ValueIdx Idealize.SL.Sem
open Cert.Roi Cert.KernelIdeal Cert.KernelIdeal.Gen

variable (m : (ℓ : Loc nD τ sig) → Buf (Elt Ideal) ℓ) (ρ : Dev nD → PrngReg)

/-- The kernel's numerator is the reference's numerator of the same argument arrays. -/
theorem numer_eq_ref (c : Dev nD) :
    Tail.numer (F := Ideal) (Accum.result m c)
      = Cert.ReferenceIdeal.Read.val_main_v17 (F := Ideal) (m ((c : Thread nD τ).loc main_arg0)) (m ((c : Thread nD τ).loc main_arg1)) := by
  funext i
  obtain ⟨b, r, cc, rfl⟩ : ∃ (b : Fin 2) (r : Fin 94) (cc : Fin 64), i = ix3 b r cc :=
    ⟨⟨(i 0).val, (i 0).isLt⟩, ⟨(i 1).val, (i 1).isLt⟩, ⟨(i 2).val, (i 2).isLt⟩, by
      funext a
      match a with
      | ⟨0, _⟩ => rfl
      | ⟨1, _⟩ => rfl
      | ⟨2, _⟩ => rfl⟩
  have hr := r.isLt
  rw [Tail.numer_apply]
  refine Eq.trans ?_ (RefSide.ref_num_apply _ _ b r cc).symm
  show ksum (Accum.featA m c) (Accum.atlasA m c) b cc ⟨1 + r.val, by omega⟩ = _
  exact ksum_eq_rsum _ _ b cc ⟨1 + r.val, by omega⟩ (by show 1 ≤ 1 + r.val; omega) (by show 1 + r.val < 95; omega)

/-- The kernel's quotient is the reference's last value of the same argument arrays. -/
theorem quotient_eq_ref (c : Dev nD) :
    Host.divf (F := Ideal) (s := S2x94x64) (φ := .f32) (Tail.numer (F := Ideal) (Accum.result m c)) (Tail.denom (F := Ideal) (m ((c : Thread nD τ).loc main_arg1)))
      = Cert.ReferenceIdeal.Read.val_main_v20 (F := Ideal) (m ((c : Thread nD τ).loc main_arg0)) (m ((c : Thread nD τ).loc main_arg1)) := by
  rw [numer_eq_ref, Tail.denom_eq_ref]
  rfl

/-- The kernel's run, read: its last value at the reference's quotient of the arguments, the arguments unchanged. -/
theorem run : θ_run defs (onTc (τ := τ) (main (F := Ideal))) ⟨m, fun _ => 0, ρ⟩ fun r => ∀ c : Dev nD,
      r.2.mem ((c.tc : Thread nD τ).loc main_v14)
        = Cert.ReferenceIdeal.Read.val_main_v20 (F := Ideal) (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v14 (Pipeline.mem_restRefs_of main_v14 (by decide) (by decide))).trans
          ((Tail.tail_value m c).trans (by rw [Accum.final]; exact quotient_eq_ref m c)),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c)⟩)
    (run_main m ρ)

end Cert.Roi.Bridge

end
-- ==== Proof.lean ====
/-
  ROI pooling over a label volume: per batch element and channel, the feature map summed over the voxels of each segment 1 … 94,
  divided by the segment's voxel count (kept away from zero).

  The kernel computes the sums as a matrix product of each depth slab of the feature map with the one-hot matrix of the slab's
  labels, accumulated over the 96 slabs of the padded volume; the reference scatters every voxel's features to its label's row.
  Over the extended reals the two sums agree for the kept rows: a one-hot weight is 0 or 1, the padding carries the label 0, which
  is no kept row, and a label selects row s exactly when it lands on s.  Both programs then divide by the same counts.

  The three frames are the generated ones (the reference's is its generated run with the value dropped); the idealization rewrote
  nothing; the value claim joins the kernel's run, read through the accumulator's invariant, to the reference's run.
-/
import proofs.«428096_j80771154968757_2_alg».proof.Defs
import proofs.«428096_j80771154968757_2_alg».proof.Proof.Gen.Kernel
import proofs.«428096_j80771154968757_2_alg».proof.Proof.Gen.Kernel.Skeleton
import proofs.«428096_j80771154968757_2_alg».proof.Proof.Gen.Kernel.Launch
import proofs.«428096_j80771154968757_2_alg».proof.Proof.Gen.Kernel.Points
import proofs.«428096_j80771154968757_2_alg».proof.Proof.Gen.Kernel.Frame
import proofs.«428096_j80771154968757_2_alg».proof.Proof.Gen.KernelIdeal
import proofs.«428096_j80771154968757_2_alg».proof.Proof.Gen.KernelIdeal.Skeleton
import proofs.«428096_j80771154968757_2_alg».proof.Proof.Gen.KernelIdeal.Launch
import proofs.«428096_j80771154968757_2_alg».proof.Proof.Gen.KernelIdeal.Points
import proofs.«428096_j80771154968757_2_alg».proof.Proof.Gen.KernelIdeal.Frame
import proofs.«428096_j80771154968757_2_alg».proof.Proof.Gen.ReferenceIdeal
import proofs.«428096_j80771154968757_2_alg».proof.Proof.Gen.Pre_finite_inputs
import proofs.«428096_j80771154968757_2_alg».proof.Proof.Gen.ReferenceIdeal.Run
import proofs.«428096_j80771154968757_2_alg».proof.Proof.Gen.ReferenceIdeal.Read
import proofs.«428096_j80771154968757_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the reference's quotient of the (agreeing) argument arrays. -/
theorem algebraic : Cert.algebraic_KernelIdeal_ReferenceIdeal := by
  intro m ρ m' ρ' _ hagree
  refine ⟨fun c => Cert.ReferenceIdeal.Read.val_main_v20 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Roi.Bridge.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
